-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64x512 : Shape := ⟨3, ![2048, 64, 512]⟩
abbrev S2048x64x1 : Shape := ⟨3, ![2048, 64, 1]⟩
abbrev S_ : Shape := ⟨0, ![]⟩

class Facts : Prop where
  bcast_S_S2048x64x512 : S_.BroadcastsInDim S2048x64x512 (![] : Fin 0 → Fin S2048x64x512.rank)
  reducesTo_S2048x64x512_S_d0_1_2 : S2048x64x512.ReducesTo [0, 1, 2] S_
  h_S_ : 0 < S_.numel
  bcast_S_S2048x64x1 : S_.BroadcastsInDim S2048x64x1 (![] : Fin 0 → Fin S2048x64x1.rank)
  reducesTo_S2048x64x1_S_d0_1_2 : S2048x64x1.ReducesTo [0, 1, 2] S_

variable [Facts]

def fn {F : FTy → Type} [FloatOps F] (main_arg0 : FVec F S2048x64x512 .f32) (main_arg1 : FVec F S2048x64x1 .f32) : IVec S_ 1 :=
  let main_v0 : FVec F S2048x64x512 .f32 := Host.absf main_arg0
  let main_cst : FVec F S_ .f32 := constant S_ .f32 0x7F800000#32
  let main_v1 : FVec F S2048x64x512 .f32 := broadcastInDim S2048x64x512 ![] bcast_S_S2048x64x512 main_cst
  let main_v2 : IVec S2048x64x512 1 := cmpf .olt main_v0 main_v1
  let main_c : IVec S_ 1 := constantI S_ 1 1#1
  let main_v3 : IVec S_ 1 := (fun x v => Host.reduce IntOp.andi x v reducesTo_S2048x64x512_S_d0_1_2 h_S_) main_v2 main_c
  let main_v4 : FVec F S2048x64x1 .f32 := Host.absf main_arg1
  let main_cst_0 : FVec F S_ .f32 := constant S_ .f32 0x7F800000#32
  let main_v5 : FVec F S2048x64x1 .f32 := broadcastInDim S2048x64x1 ![] bcast_S_S2048x64x1 main_cst_0
  let main_v6 : IVec S2048x64x1 1 := cmpf .olt main_v4 main_v5
  let main_c_1 : IVec S_ 1 := constantI S_ 1 1#1
  let main_v7 : IVec S_ 1 := (fun x v => Host.reduce IntOp.andi x v reducesTo_S2048x64x1_S_d0_1_2 h_S_) main_v6 main_c_1
  let main_v8 : IVec S_ 1 := andi main_v3 main_v7
  main_v8
-- ==== Kernel.lean ====
abbrev S2048x64x512 : Shape := ⟨3, ![2048, 64, 512]⟩
abbrev S2048x64x1 : Shape := ⟨3, ![2048, 64, 1]⟩
abbrev S131072x512 : Shape := ⟨2, ![131072, 512]⟩
abbrev S131072x1 : Shape := ⟨2, ![131072, 1]⟩
abbrev S2x8x128 : Shape := ⟨3, ![2, 8, 128]⟩
abbrev S4096x512 : Shape := ⟨2, ![4096, 512]⟩
abbrev S4096x1 : Shape := ⟨2, ![4096, 1]⟩
abbrev S1x8x128 : Shape := ⟨3, ![1, 8, 128]⟩
abbrev S4096 : Shape := ⟨1, ![4096]⟩
abbrev S1x4096x1 : Shape := ⟨3, ![1, 4096, 1]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 22
  | .vmem => 10
  | .smem => 0
  | _ => 0

abbrev bufTy : (tb : Table) → Fin (tcTables nBuf tb) → BufTy
  | .hbm, ⟨0, _⟩ => ⟨S2048x64x512, .f32⟩
  | .hbm, ⟨1, _⟩ => ⟨S2048x64x1, .f32⟩
  | .hbm, ⟨2, _⟩ => ⟨S131072x512, .f32⟩
  | .hbm, ⟨3, _⟩ => ⟨S131072x1, .f32⟩
  | .hbm, ⟨4, _⟩ => ⟨S2x8x128, .f32⟩
  | .hbm, ⟨5, _⟩ => ⟨S2x8x128, .f32⟩
  | .hbm, ⟨6, _⟩ => ⟨S2x1x1, .f32⟩
  | .hbm, ⟨7, _⟩ => ⟨S2, .f32⟩
  | .hbm, ⟨8, _⟩ => ⟨S_, .f32⟩
  | .hbm, ⟨9, _⟩ => ⟨S_, .f32⟩
  | .hbm, ⟨10, _⟩ => ⟨S2x1x1, .f32⟩
  | .hbm, ⟨11, _⟩ => ⟨S2, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i1⟩
  | .hbm, ⟨20, _⟩ => ⟨S_, .f32⟩
  | .hbm, ⟨21, _⟩ => ⟨S_, .f32⟩
  | .local _ .vmem, ⟨0, _⟩ => ⟨S4096x512, .f32⟩
  | .local _ .vmem, ⟨1, _⟩ => ⟨S4096x512, .f32⟩
  | .local _ .vmem, ⟨2, _⟩ => ⟨S4096x1, .f32⟩
  | .local _ .vmem, ⟨3, _⟩ => ⟨S4096x1, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S4096x1, .f32⟩
  | .local _ .vmem, ⟨9, _⟩ => ⟨S4096x1, .f32⟩
  | _, _ => ⟨S2048x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2048x64x512_S131072x512 : S2048x64x512.ShapeCasts S131072x512
  shapeCasts_S2048x64x1_S131072x1 : S2048x64x1.ShapeCasts S131072x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  broadcasts_S4096x1_S4096x512 : S4096x1.Broadcasts S4096x512
  reduces_S4096x512_S4096 : S4096x512.Reduces [1] S4096
  shapeCasts_S4096_S4096x1 : S4096.ShapeCasts S4096x1
  natLt_1_32 : 1 < 32
  shapeCasts_S4096x1_S1x4096x1 : S4096x1.ShapeCasts S1x4096x1
  reduces_S1x4096x1_S1 : S1x4096x1.Reduces [1, 2] S1
  shapeCasts_S1_S1x1x1 : S1.ShapeCasts S1x1x1
  inpos_S1x1x1_p0_0_0 : ∀ a, (![0, 0, 0] : Fin 3 → Nat) a < S1x1x1.size a
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S131072x1.size a
  hwx0_1 : ∀ i : grid0.Coords, EltTy.bits .f32 = 32 ∨ (Rect.block (s := S131072x1) S4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

abbrev win0_0 : Pipeline.Window sig grid0 :=
  Pipeline.Window.ofSpec (Memref.whole main_v0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x64x512 : Shape := ⟨3, ![2048, 64, 512]⟩
abbrev S2048x64x1 : Shape := ⟨3, ![2048, 64, 1]⟩
abbrev S_ : Shape := ⟨0, ![]⟩
abbrev S2048x64 : Shape := ⟨2, ![2048, 64]⟩
abbrev S131072x512 : Shape := ⟨2, ![131072, 512]⟩

abbrev nBuf : Space → Nat
  | .hbm => 39
  | .vmem => 0
  | .smem => 0
  | _ => 0

abbrev bufTy : (tb : Table) → Fin (tcTables nBuf tb) → BufTy
  | .hbm, ⟨0, _⟩ => ⟨S2048x64x512, .f32⟩
  | .hbm, ⟨1, _⟩ => ⟨S2048x64x1, .f32⟩
  | .hbm, ⟨2, _⟩ => ⟨S2048x64x512, .f32⟩
  | .hbm, ⟨3, _⟩ => ⟨S2048x64x512, .f32⟩
  | .hbm, ⟨4, _⟩ => ⟨S_, .f32⟩
  | .hbm, ⟨5, _⟩ => ⟨S2048x64, .f32⟩
  | .hbm, ⟨6, _⟩ => ⟨S_, .f32⟩
  | .hbm, ⟨7, _⟩ => ⟨S2048x64, .f32⟩
  | .hbm, ⟨8, _⟩ => ⟨S2048x64, .f32⟩
  | .hbm, ⟨9, _⟩ => ⟨S2048x64x1, .f32⟩
  | .hbm, ⟨10, _⟩ => ⟨S2048x64x512, .f32⟩
  | .hbm, ⟨11, _⟩ => ⟨S2048x64x512, .f32⟩
  | .hbm, ⟨12, _⟩ => ⟨S2048x64x512, .f32⟩
  | .hbm, ⟨13, _⟩ => ⟨S_, .f32⟩
  | .hbm, ⟨14, _⟩ => ⟨S2048x64, .f32⟩
  | .hbm, ⟨15, _⟩ => ⟨S2048x64x1, .f32⟩
  | .hbm, ⟨16, _⟩ => ⟨S2048x64x512, .f32⟩
  | .hbm, ⟨17, _⟩ => ⟨S2048x64x512, .f32⟩
  | .hbm, ⟨18, _⟩ => ⟨S131072x512, .f32⟩
  | .hbm, ⟨19, _⟩ => ⟨S_, .f32⟩
  | .hbm, ⟨20, _⟩ => ⟨S131072x512, .f32⟩
  | .hbm, ⟨21, _⟩ => ⟨S131072x512, .i1⟩
  | .hbm, ⟨22, _⟩ => ⟨S131072x512, .i32⟩
  | .hbm, ⟨23, _⟩ => ⟨S_, .i32⟩
  | .hbm, ⟨24, _⟩ => ⟨S_, .i32⟩
  | .hbm, ⟨25, _⟩ => ⟨S_, .f32⟩
  | .hbm, ⟨26, _⟩ => ⟨S131072x512, .f32⟩
  | .hbm, ⟨27, _⟩ => ⟨S131072x512, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .i32⟩
  | .hbm, ⟨32, _⟩ => ⟨S_, .i32⟩
  | .hbm, ⟨33, _⟩ => ⟨S_, .f32⟩
  | .hbm, ⟨34, _⟩ => ⟨S_, .f32⟩
  | .hbm, ⟨35, _⟩ => ⟨S_, .i32⟩
  | .hbm, ⟨36, _⟩ => ⟨S_, .i1⟩
  | .hbm, ⟨37, _⟩ => ⟨S_, .f32⟩
  | .hbm, ⟨38, _⟩ => ⟨S_, .f32⟩
  | _, _ => ⟨S2048x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_cst_3 : Ref sig .tc := ⟨.hbm, 25, rfl⟩
abbrev main_call0_v0 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  bcast_S2048x64x1_S2048x64x512_0_1_2 : S2048x64x1.BroadcastsInDim S2048x64x512 (![0, 1, 2] : Fin 3 → Fin S2048x64x512.rank)
  reducesTo_S2048x64x512_S2048x64_d2 : S2048x64x512.ReducesTo [2] S2048x64
  h_S_ : 0 < S_.numel
  bcast_S_S2048x64 : S_.BroadcastsInDim S2048x64 (![] : Fin 0 → Fin S2048x64.rank)
  bcast_S2048x64_S2048x64x1_0_1 : S2048x64.BroadcastsInDim S2048x64x1 (![0, 1] : Fin 2 → Fin S2048x64x1.rank)
  shapeCasts_S2048x64x512_S131072x512 : S2048x64x512.ShapeCasts S131072x512
  bcast_S_S131072x512 : S_.BroadcastsInDim S131072x512 (![] : Fin 0 → Fin S131072x512.rank)
  natLt_1_32 : 1 < 32
  reducesTo_S131072x512_S_d0_1 : S131072x512.ReducesTo [0, 1] S_

variable [Facts₀]

class Facts : Prop extends Facts₀ where

variable [Facts]
-- ==== Proof.KPieces.lean ====
/-
  What each control case of the kernel body leaves behind, as values.

  The body keeps two `[4096, 1]` accumulators in scratch.  At the first point of a core's run (case A) it clears
  them and then adds this block's per-row contributions; at a middle point (case B) and at the last point (case C)
  it adds to what the point before left; at the last point it also sums each accumulator over its rows and fills
  the core's output block with that one number.  Each lemma reads the stores the run found back as one payload.
-/
import proofs.«412284_j48619029790963_3_alg».proof.Proof.Gen.KernelIdeal.Frame
import Idealize.ShloMosaic.Lib.Pipeline.Value
import Idealize.ShloMosaic.Lib.Tactic

noncomputable section

namespace Cert.KernelIdeal.KValue

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Case A, total accumulator: cleared, then this block's contributions added. -/
theorem sout_A_0 (c : Dev nD) (i : grid0.Coords) (arg2 : Memref sig .tc .vmem S4096x512 .f32) (harg2 : arg2.IsWhole) (arg3 : Memref sig .tc .vmem S4096x1 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4096x1 .f32) (harg6 : arg6.IsWhole) (arg7 : Memref sig .tc .vmem S4096x1 .f32) (harg7 : arg7.IsWhole) (hc0 : cond0_0 i) (hc1 : ¬cond0_1 i) (x0 : Vec F S4096x512 .f32) (x1 : Vec F S4096x1 .f32) :
    sout0_A_0 c i arg2 harg2 arg3 harg3 arg4 harg4 arg5 harg5 arg6 harg6 arg7 harg7 hc0 hc1 x0 x1 = k0_pay7 x0 x1 (k0_pay3 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S4096x1) hz2, View.readCov_unit_zero (S := S4096x1) _ hz2]
  simp only [View.readAt_eq_ld, harg2.read_unread, harg3.read_unread,
    View.ld_unit_zero (S := S4096x512) hz2, View.ld_unit_zero (S := S4096x1) hz2]

/-- Case A, count accumulator. -/
theorem sout_A_1 (c : Dev nD) (i : grid0.Coords) (arg2 : Memref sig .tc .vmem S4096x512 .f32) (harg2 : arg2.IsWhole) (arg3 : Memref sig .tc .vmem S4096x1 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4096x1 .f32) (harg6 : arg6.IsWhole) (arg7 : Memref sig .tc .vmem S4096x1 .f32) (harg7 : arg7.IsWhole) (hc0 : cond0_0 i) (hc1 : ¬cond0_1 i) (x0 : Vec F S4096x512 .f32) (x1 : Vec F S4096x1 .f32) :
    sout0_A_1 c i arg2 harg2 arg3 harg3 arg4 harg4 arg5 harg5 arg6 harg6 arg7 harg7 hc0 hc1 x0 x1 = k0_pay8 x0 x1 (k0_pay4 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S4096x1) hz2, View.readCov_unit_zero (S := S4096x1) _ hz2]
  simp only [View.readAt_eq_ld, harg2.read_unread, harg3.read_unread,
    View.ld_unit_zero (S := S4096x512) hz2, View.ld_unit_zero (S := S4096x1) hz2]

/-- Case B, total accumulator: this block's contributions added to what the point before left. -/
theorem sout_B_0 (c : Dev nD) (i : grid0.Coords) (arg2 : Memref sig .tc .vmem S4096x512 .f32) (harg2 : arg2.IsWhole) (arg3 : Memref sig .tc .vmem S4096x1 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4096x1 .f32) (harg6 : arg6.IsWhole) (arg7 : Memref sig .tc .vmem S4096x1 .f32) (harg7 : arg7.IsWhole) (hc0 : ¬cond0_0 i) (hc1 : ¬cond0_1 i) (x0 : Vec F S4096x512 .f32) (x1 : Vec F S4096x1 .f32) (xs0 : Vec F S4096x1 .f32) (xs1 : Vec F S4096x1 .f32) :
    sout0_B_0 c i arg2 harg2 arg3 harg3 arg4 harg4 arg5 harg5 arg6 harg6 arg7 harg7 hc0 hc1 x0 x1 xs0 xs1 = k0_pay7 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread,
    View.ld_unit_zero (S := S4096x512) hz2, View.ld_unit_zero (S := S4096x1) hz2]

/-- Case B, count accumulator. -/
theorem sout_B_1 (c : Dev nD) (i : grid0.Coords) (arg2 : Memref sig .tc .vmem S4096x512 .f32) (harg2 : arg2.IsWhole) (arg3 : Memref sig .tc .vmem S4096x1 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4096x1 .f32) (harg6 : arg6.IsWhole) (arg7 : Memref sig .tc .vmem S4096x1 .f32) (harg7 : arg7.IsWhole) (hc0 : ¬cond0_0 i) (hc1 : ¬cond0_1 i) (x0 : Vec F S4096x512 .f32) (x1 : Vec F S4096x1 .f32) (xs0 : Vec F S4096x1 .f32) (xs1 : Vec F S4096x1 .f32) :
    sout0_B_1 c i arg2 harg2 arg3 harg3 arg4 harg4 arg5 harg5 arg6 harg6 arg7 harg7 hc0 hc1 x0 x1 xs0 xs1 = k0_pay8 x0 x1 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg7.read_unread,
    View.ld_unit_zero (S := S4096x512) hz2, View.ld_unit_zero (S := S4096x1) hz2]

/-- Case C, total accumulator. -/
theorem sout_C_0 (c : Dev nD) (i : grid0.Coords) (arg2 : Memref sig .tc .vmem S4096x512 .f32) (harg2 : arg2.IsWhole) (arg3 : Memref sig .tc .vmem S4096x1 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4096x1 .f32) (harg6 : arg6.IsWhole) (arg7 : Memref sig .tc .vmem S4096x1 .f32) (harg7 : arg7.IsWhole) (hc0 : ¬cond0_0 i) (hc1 : cond0_1 i) (x0 : Vec F S4096x512 .f32) (x1 : Vec F S4096x1 .f32) (xs0 : Vec F S4096x1 .f32) (xs1 : Vec F S4096x1 .f32) :
    sout0_C_0 c i arg2 harg2 arg3 harg3 arg4 harg4 arg5 harg5 arg6 harg6 arg7 harg7 hc0 hc1 x0 x1 xs0 xs1 = k0_pay7 x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread,
    View.ld_unit_zero (S := S4096x512) hz2, View.ld_unit_zero (S := S4096x1) hz2]

/-- Case C, count accumulator. -/
theorem sout_C_1 (c : Dev nD) (i : grid0.Coords) (arg2 : Memref sig .tc .vmem S4096x512 .f32) (harg2 : arg2.IsWhole) (arg3 : Memref sig .tc .vmem S4096x1 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4096x1 .f32) (harg6 : arg6.IsWhole) (arg7 : Memref sig .tc .vmem S4096x1 .f32) (harg7 : arg7.IsWhole) (hc0 : ¬cond0_0 i) (hc1 : cond0_1 i) (x0 : Vec F S4096x512 .f32) (x1 : Vec F S4096x1 .f32) (xs0 : Vec F S4096x1 .f32) (xs1 : Vec F S4096x1 .f32) :
    sout0_C_1 c i arg2 harg2 arg3 harg3 arg4 harg4 arg5 harg5 arg6 harg6 arg7 harg7 hc0 hc1 x0 x1 xs0 xs1 = k0_pay8 x0 x1 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg7.read_unread,
    View.ld_unit_zero (S := S4096x512) hz2, View.ld_unit_zero (S := S4096x1) hz2]

/-- Case C, the totals' output block: the updated total accumulator summed over its rows, everywhere. -/
theorem out_C_2 (c : Dev nD) (i : grid0.Coords) (arg2 : Memref sig .tc .vmem S4096x512 .f32) (harg2 : arg2.IsWhole) (arg3 : Memref sig .tc .vmem S4096x1 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4096x1 .f32) (harg6 : arg6.IsWhole) (arg7 : Memref sig .tc .vmem S4096x1 .f32) (harg7 : arg7.IsWhole) (hc0 : ¬cond0_0 i) (hc1 : cond0_1 i) (x0 : Vec F S4096x512 .f32) (x1 : Vec F S4096x1 .f32) (xs0 : Vec F S4096x1 .f32) (xs1 : Vec F S4096x1 .f32) :
    out0_C_2 c i arg2 harg2 arg3 harg3 arg4 harg4 arg5 harg5 arg6 harg6 arg7 harg7 hc0 hc1 x0 x1 xs0 xs1 = k0_pay1 (k0_pay7 x0 x1 xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz3]
  simp only [View.readCov_unit_zero (S := S4096x1) _ hz2, View.readAt_eq_ld, harg2.read_unread, harg3.read_unread,
    harg6.read_unread, View.ld_unit_zero (S := S4096x512) hz2, View.ld_unit_zero (S := S4096x1) hz2]

/-- Case C, the counts' output block. -/
theorem out_C_3 (c : Dev nD) (i : grid0.Coords) (arg2 : Memref sig .tc .vmem S4096x512 .f32) (harg2 : arg2.IsWhole) (arg3 : Memref sig .tc .vmem S4096x1 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S4096x1 .f32) (harg6 : arg6.IsWhole) (arg7 : Memref sig .tc .vmem S4096x1 .f32) (harg7 : arg7.IsWhole) (hc0 : ¬cond0_0 i) (hc1 : cond0_1 i) (x0 : Vec F S4096x512 .f32) (x1 : Vec F S4096x1 .f32) (xs0 : Vec F S4096x1 .f32) (xs1 : Vec F S4096x1 .f32) :
    out0_C_3 c i arg2 harg2 arg3 harg3 arg4 harg4 arg5 harg5 arg6 harg6 arg7 harg7 hc0 hc1 x0 x1 xs0 xs1 = k0_pay2 (k0_pay8 x0 x1 xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz3]
  simp only [View.readCov_unit_zero (S := S4096x1) _ hz2, View.readAt_eq_ld, harg2.read_unread, harg3.read_unread,
    harg7.read_unread, View.ld_unit_zero (S := S4096x512) hz2, View.ld_unit_zero (S := S4096x1) hz2]

end Cert.KernelIdeal.KValue

end
-- ==== Proof.RowLaw.lean ====
/-
  One row of the selection, over the extended reals.

  A row is `x : Fin 512 → EReal`.  Its softmax is `p j = e j / s` with `e j = exp (x j - M)`, `M` the row's
  maximum and `s = ∑ j, e j`.  The threshold `thr` (the float `0.9` rounded to binary32) lies above one half.
  For a row of finite numbers every `e j` lies in `(0, 1]` and equals `1` at a position where the maximum is
  attained, so `1 ≤ s`, every `p j ≤ 1 / s`, and the `p j` sum to one.  Hence at most one `p j` can pass the
  threshold; one does exactly when `1 / s` passes it, and then it is that `1 / s`:

      ∑ j, [thr < p j] · p j = [thr < 1 / s] · (1 / s),        #{ j | thr < p j } = [thr < 1 / s].

  This is the law that joins "select every class above the threshold" to "look at the row maximum only".
-/
import Idealize.ShloMosaic.PureOps.Ideal
import Idealize.ShloMosaic.PureOps.Ideal.Laws

noncomputable section

namespace Cert.RowLaw

open Idealize.ShloMosaic

/-- The threshold: the binary32 word of `0.9`, read as an extended real. -/
def thr : EReal := Ideal.ofBits .f32 0x3F666666#32

/-- The row's maximum, as the fold of `max` from `-∞`. -/
def rowMax (x : Fin 512 → EReal) : EReal := (Finset.univ : Finset (Fin 512)).fold max ⊥ x

/-- `e j = exp (x j - M)`. -/
def rowExp (x : Fin 512 → EReal) (j : Fin 512) : EReal := Ideal.exp (x j - rowMax x)

/-- `s = ∑ j, e j`. -/
def rowSum (x : Fin 512 → EReal) : EReal := ∑ j : Fin 512, rowExp x j

/-- `1 / s`: the softmax probability at a position of the maximum. -/
def rowInv (x : Fin 512 → EReal) : EReal := Ideal.div 1 (rowSum x)

/-- Does `1 / s` pass the threshold (as a bit). -/
def rowHit (x : Fin 512 → EReal) : BitVec 1 := Ideal.cmp .ogt (rowInv x) thr

/-- The row's contribution to the total: `1 / s` if it passes, else `0`. -/
def rowTot (x : Fin 512 → EReal) : EReal := if rowHit x = 1#1 then rowInv x else 0

/-- The row's contribution to the count, as the float of the widened bit. -/
def rowCnt (x : Fin 512 → EReal) : EReal := ((((rowHit x).setWidth 32).toInt : ℝ) : EReal)

/-- The softmax probability `p j = e j / s`. -/
def softP (x : Fin 512 → EReal) (j : Fin 512) : EReal := Ideal.div (rowExp x j) (rowSum x)

/-- Does `p j` pass the threshold (as a bit). -/
def softSel (x : Fin 512 → EReal) (j : Fin 512) : BitVec 1 := Ideal.cmp .ogt (softP x j) thr

/-- The patterns of `-∞`, `1` and the threshold. -/
theorem ofBits_negInf : Ideal.ofBits .f32 0xFF800000#32 = (⊥ : EReal) := by
  simp [Ideal.ofBits, Ideal.ieee]

theorem ofBits_one : Ideal.ofBits .f32 0x3F800000#32 = (1 : EReal) := by
  simp [Ideal.ofBits, Ideal.ieee, -EReal.coe_mul]; norm_num

/-- The threshold's pattern has exponent field `126` and fraction `6710886`: it is `15099494 / 2 ^ 24`. -/
theorem thr_eq : thr = (((15099494 : ℝ) / 16777216 : ℝ) : EReal) := by
  simp [thr, Ideal.ofBits, Ideal.ieee, -EReal.coe_mul]; norm_num

/-- The threshold is a real number above one half. -/
theorem thr_real : ∃ t : ℝ, thr = (t : EReal) ∧ 1 / 2 < t :=
  ⟨_, thr_eq, by norm_num⟩

/-- A one-bit word is `0` or `1`. -/
theorem bit_cases (b : BitVec 1) : b = 0#1 ∨ b = 1#1 := by
  revert b; decide

/-- The float of a widened bit is `1` or `0`. -/
theorem rowCnt_eq (x : Fin 512 → EReal) : rowCnt x = if rowHit x = 1#1 then 1 else 0 := by
  unfold rowCnt
  rcases bit_cases (rowHit x) with h | h <;> rw [h] <;> simp

/-- The comparison bit is set exactly when the strict inequality holds. -/
theorem cmp_ogt_eq_one (a b : EReal) : Ideal.cmp .ogt a b = 1#1 ↔ b < a := by
  unfold Ideal.cmp
  by_cases h : b < a <;> simp [h]

/-! ### The law over the reals -/

section Real

variable {ι : Type} [Fintype ι] [DecidableEq ι]

/-- The sum of positive terms, one of which is `1`, is at least `1`. -/
theorem one_le_sum (e : ι → ℝ) (j0 : ι) (hpos : ∀ j, 0 < e j) (h0 : e j0 = 1) : 1 ≤ ∑ j, e j := by
  rw [← h0]
  exact Finset.single_le_sum (fun j _ => (hpos j).le) (Finset.mem_univ j0)

/-- Any other term is at most the sum less that `1`. -/
theorem le_sum_sub_one (e : ι → ℝ) (j0 j : ι) (hpos : ∀ j, 0 < e j) (h0 : e j0 = 1) (hj : j ≠ j0) :
    e j ≤ (∑ j, e j) - 1 := by
  have h1 : e j0 + ∑ i ∈ Finset.univ.erase j0, e i = ∑ i, e i :=
    Finset.add_sum_erase Finset.univ e (Finset.mem_univ j0)
  have h2 : e j ≤ ∑ i ∈ Finset.univ.erase j0, e i :=
    Finset.single_le_sum (fun i _ => (hpos i).le) (Finset.mem_erase.mpr ⟨hj, Finset.mem_univ j⟩)
  linarith

/-- Above one half, `1 / s` passes: exactly the position of the `1` passes. -/
theorem pass_iff (e : ι → ℝ) (j0 : ι) (t : ℝ) (hpos : ∀ j, 0 < e j) (h0 : e j0 = 1) (ht : 1 / 2 < t)
    (hs : t < 1 / ∑ j, e j) (j : ι) : t < e j / (∑ j, e j) ↔ j = j0 := by
  have h1 : 1 ≤ ∑ j, e j := one_le_sum e j0 hpos h0
  have hs0 : 0 < ∑ j, e j := by linarith
  constructor
  · intro h
    by_contra hj
    have h2 := le_sum_sub_one e j0 j hpos h0 hj
    have h3 : e j / (∑ j, e j) ≤ 1 - 1 / (∑ j, e j) := by
      rw [div_le_iff₀ hs0, sub_mul, one_mul, one_div, inv_mul_cancel₀ hs0.ne']
      exact h2
    linarith
  · rintro rfl
    rw [h0]; exact hs

/-- `1 / s` does not pass: nothing passes. -/
theorem not_pass (e : ι → ℝ) (j0 : ι) (t : ℝ) (hpos : ∀ j, 0 < e j) (hle : ∀ j, e j ≤ 1) (h0 : e j0 = 1)
    (hs : ¬ t < 1 / ∑ j, e j) (j : ι) : ¬ t < e j / (∑ j, e j) := by
  have h1 : 1 ≤ ∑ j, e j := one_le_sum e j0 hpos h0
  have hs0 : 0 < ∑ j, e j := by linarith
  have h2 : e j / (∑ j, e j) ≤ 1 / (∑ j, e j) := by
    exact div_le_div_of_nonneg_right (hle j) hs0.le
  intro h; exact hs (lt_of_lt_of_le h h2)

end Real

/-! ### A finite row in coerced form -/

/-- The coercion of the reals into the extended reals commutes with finite sums. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The maximum of a row is attained and bounds the row. -/
theorem rowMax_attained (x : Fin 512 → EReal) : ∃ j0, rowMax x = x j0 ∧ ∀ j, x j ≤ x j0 := by
  obtain ⟨j0, -, hj0⟩ := Finset.exists_max_image Finset.univ x ⟨0, Finset.mem_univ _⟩
  refine ⟨j0, le_antisymm ?_ ?_, fun j => hj0 j (Finset.mem_univ j)⟩
  · exact (Finset.fold_max_le _).mpr ⟨bot_le, hj0⟩
  · exact (Finset.le_fold_max _).mpr (Or.inr ⟨j0, Finset.mem_univ _, le_rfl⟩)

/-- A finite row, normalised: there are reals `e j ∈ (0, 1]`, one of them `1`, with `rowExp x j = e j`. -/
theorem rowExp_real (x : Fin 512 → EReal) (hx : ∀ j, ∃ r : ℝ, x j = (r : EReal)) :
    ∃ (e : Fin 512 → ℝ) (j0 : Fin 512), (∀ j, rowExp x j = (e j : EReal)) ∧ (∀ j, 0 < e j) ∧ (∀ j, e j ≤ 1) ∧
      e j0 = 1 := by
  choose r hr using hx
  obtain ⟨j0, hM, hle⟩ := rowMax_attained x
  refine ⟨fun j => Real.exp (r j - r j0), j0, fun j => ?_, fun j => Real.exp_pos _, fun j => ?_, by simp⟩
  · rw [rowExp, hM, hr j, hr j0, ← EReal.coe_sub]; rfl
  · have h : r j ≤ r j0 := by
      have := hle j; rw [hr j, hr j0] at this; exact_mod_cast this
    exact Real.exp_le_one_iff.mpr (by linarith)

/-- The whole row in coerced form. -/
theorem row_real (x : Fin 512 → EReal) (hx : ∀ j, ∃ r : ℝ, x j = (r : EReal)) :
    ∃ (e : Fin 512 → ℝ) (j0 : Fin 512), (∀ j, 0 < e j) ∧ (∀ j, e j ≤ 1) ∧ e j0 = 1 ∧
      rowInv x = ((1 / ∑ j, e j : ℝ) : EReal) ∧ ∀ j, softP x j = ((e j / ∑ j, e j : ℝ) : EReal) := by
  obtain ⟨e, j0, he, hpos, hle, h0⟩ := rowExp_real x hx
  have hsum : rowSum x = ((∑ j, e j : ℝ) : EReal) := by
    rw [rowSum, coe_sum]; exact Finset.sum_congr rfl fun j _ => he j
  have hs0 : (∑ j, e j) ≠ 0 := by
    have := one_le_sum e j0 hpos h0; linarith
  refine ⟨e, j0, hpos, hle, h0, ?_, fun j => ?_⟩
  · rw [rowInv, hsum, Ideal.div_coe hs0, one_mul]
  · rw [softP, hsum, he j, Ideal.div_coe hs0, ← EReal.coe_mul, mul_one_div]

/-- The selection of a finite row: a position `j0` carries `1 / s`; if `1 / s` passes the threshold then `j0` and
    only `j0` is selected, and otherwise nothing is. -/
theorem sel_cases (x : Fin 512 → EReal) (hx : ∀ j, ∃ r : ℝ, x j = (r : EReal)) :
    ∃ j0, softP x j0 = rowInv x ∧ (rowHit x = 1#1 → ∀ j, softSel x j = 1#1 ↔ j = j0) ∧
      (¬ rowHit x = 1#1 → ∀ j, ¬ softSel x j = 1#1) := by
  obtain ⟨e, j0, hpos, hle, h0, hinv, hp⟩ := row_real x hx
  obtain ⟨t, htr, ht⟩ := thr_real
  refine ⟨j0, ?_, ?_, ?_⟩
  · rw [hp j0, hinv, h0]
  · intro hh j
    rw [rowHit, cmp_ogt_eq_one, hinv, htr, EReal.coe_lt_coe_iff] at hh
    rw [softSel, cmp_ogt_eq_one, hp j, htr, EReal.coe_lt_coe_iff]
    exact pass_iff e j0 t hpos h0 ht hh j
  · intro hh j
    rw [rowHit, cmp_ogt_eq_one, hinv, htr, EReal.coe_lt_coe_iff] at hh
    rw [softSel, cmp_ogt_eq_one, hp j, htr, EReal.coe_lt_coe_iff]
    exact not_pass e j0 t hpos hle h0 hh j

/-- THE LAW, for the total: over a row of finite numbers the selected probabilities sum to the row's contribution. -/
theorem sum_softSel (x : Fin 512 → EReal) (hx : ∀ j, ∃ r : ℝ, x j = (r : EReal)) :
    (∑ j : Fin 512, if softSel x j = 1#1 then softP x j else 0) = rowTot x := by
  obtain ⟨j0, hj0, hyes, hno⟩ := sel_cases x hx
  unfold rowTot
  by_cases hh : rowHit x = 1#1
  · rw [if_pos hh, ← hj0]
    have : ∀ j, (if softSel x j = 1#1 then softP x j else 0) = if j = j0 then softP x j else 0 := by
      intro j; simp only [hyes hh j]
    rw [Finset.sum_congr rfl fun j _ => this j, Finset.sum_ite_eq' Finset.univ j0, if_pos (Finset.mem_univ _)]
  · rw [if_neg hh]
    exact Finset.sum_eq_zero fun j _ => if_neg (hno hh j)

/-- THE LAW, for the count: the number of selected classes of a finite row is one if `1 / s` passes, else none. -/
theorem card_softSel (x : Fin 512 → EReal) (hx : ∀ j, ∃ r : ℝ, x j = (r : EReal)) :
    (Finset.univ.filter fun j : Fin 512 => softSel x j = 1#1).card = if rowHit x = 1#1 then 1 else 0 := by
  obtain ⟨j0, -, hyes, hno⟩ := sel_cases x hx
  by_cases hh : rowHit x = 1#1
  · rw [if_pos hh]
    have : (Finset.univ.filter fun j : Fin 512 => softSel x j = 1#1) = {j0} := by
      ext j; simp [hyes hh j]
    rw [this, Finset.card_singleton]
  · rw [if_neg hh]
    have : (Finset.univ.filter fun j : Fin 512 => softSel x j = 1#1) = ∅ := by
      ext j; simp [hno hh j]
    rw [this, Finset.card_empty]

end Cert.RowLaw

end
-- ==== Proof.Totals.lean ====
/-
  From rows to the scalar.

  The `131072` rows are visited by the kernel as `32` consecutive blocks of `4096` rows (row `4096 t + r` at grid
  point `t`), sixteen consecutive points to each of two cores; the reference visits them as one `[131072, 512]` table.
  Over the extended reals a finite sum does not depend on its arrangement, so both add up the same per-row
  contributions `rowTot` and `rowCnt`.  The count is a natural number `H ≤ 131072`: as a 32-bit word it does not
  wrap, its signed reading is `H`, and the float sum of the per-row ones is `H` too.  The scalar both programs return
  is `-total / max count 1` when the count is positive and `0` otherwise (`finish`).
-/
import proofs.«412284_j48619029790963_3_alg».proof.Proof.RowLaw
import Idealize.ShloMosaic.Lib.ValueIdx
import Idealize.ShloMosaic.Lib.StableHlo.Predicate

noncomputable section

namespace Cert.Totals

open Idealize.ShloMosaic Idealize.ShloMosaic.ValueIdx Cert.RowLaw

/-- Row `n` of the flattened score table times its mask entry. -/
def rowOf (P : (⟨2, ![131072, 512]⟩ : Shape).Idx → EReal) (K : (⟨2, ![131072, 1]⟩ : Shape).Idx → EReal)
    (n : Fin 131072) : Fin 512 → EReal := fun j => P (ix2 n j) * K (ix2 n 0)

/-- The total of the rows' contributions. -/
def totAll (X : Fin 131072 → Fin 512 → EReal) : EReal := ∑ n : Fin 131072, rowTot (X n)

/-- The number of rows whose `1 / s` passes the threshold. -/
def hits (X : Fin 131072 → Fin 512 → EReal) : ℕ := (Finset.univ.filter fun n : Fin 131072 => rowHit (X n) = 1#1).card

theorem hits_le (X : Fin 131072 → Fin 512 → EReal) : hits X ≤ 131072 := by
  unfold hits
  exact (Finset.card_le_univ _).trans (by simp)

/-- The float sum of the rows' ones is the number of hits. -/
theorem sum_rowCnt (X : Fin 131072 → Fin 512 → EReal) : (∑ n : Fin 131072, rowCnt (X n)) = ((hits X : ℝ) : EReal) := by
  unfold hits
  rw [Finset.card_filter, Nat.cast_sum, RowLaw.coe_sum]
  refine Finset.sum_congr rfl fun n _ => ?_
  rw [rowCnt_eq]
  split_ifs <;> simp

/-- The scalar returned: `-tot / max cnt 1` if `0 < cnt`, else `0` (with the zero and one patterns as printed). -/
def finish (tot cnt : EReal) : EReal :=
  Scalar.select (Ideal.cmp .ogt cnt (Ideal.ofBits .f32 0x00000000#32))
    (Ideal.div (-tot) (max cnt (Ideal.ofBits .f32 0x3F800000#32))) (Ideal.ofBits .f32 0x00000000#32)

/-- A positive word below `2³¹` is its own signed maximum with `1`. -/
theorem maxsi_one (w : BitVec 32) (h1 : 1 ≤ w.toNat) (h2 : w.toNat < 2 ^ 31) : IntOp.maxsi w 1#32 = w := by
  have hti : w.toInt = w.toNat := StableHlo.Predicate.toInt_eq_toNat_of_lt h2
  have h1i : (1#32 : BitVec 32).toInt = 1 := by decide
  unfold IntOp.maxsi
  split
  · rfl
  · rename_i hc
    simp only [BitVec.slt, hti, h1i, decide_eq_true_eq] at hc
    apply BitVec.eq_of_toNat_eq
    simp only [BitVec.toNat_ofNat]
    omega

/-- The reference's integer form of the same scalar: a count word `w` that reads `H < 2³¹`, compared signed with zero,
    clamped below by one and converted, gives `finish` at the float `H`. -/
theorem finish_of_word (tot : EReal) (w : BitVec 32) (H : ℕ) (hw : w.toNat = H) (hH : H < 2 ^ 31) :
    Scalar.select (IntOp.cmpi .sgt w 0#32) (Ideal.div (-tot) ((((IntOp.maxsi w 1#32).toInt : ℝ) : EReal)))
      (Ideal.ofBits .f32 0x00000000#32) = finish tot ((H : ℝ) : EReal) := by
  have hc1 : IntOp.cmpi .sgt w 0#32 = 1#1 ↔ 0 < H := by
    rw [StableHlo.Predicate.sgt_iff_toNat (by omega) (by decide), hw]; simp
  have hc2 : Ideal.cmp .ogt ((H : ℝ) : EReal) 0 = 1#1 ↔ 0 < H := by
    rw [cmp_ogt_eq_one]; exact_mod_cast Iff.rfl
  unfold finish
  rw [Ideal.ofBits_zero_f32, ofBits_one]
  by_cases hp : 0 < H
  · rw [hc1.mpr hp, hc2.mpr hp, select_one, select_one, maxsi_one w (by omega) (by omega),
      StableHlo.Predicate.toInt_eq_toNat_of_lt (by omega), hw, Int.cast_natCast]
    have h1 : (1 : EReal) ≤ ((H : ℝ) : EReal) := by exact_mod_cast hp
    rw [max_eq_left h1]
  · rw [eq_zero_of_ne_one (mt hc1.mp hp), eq_zero_of_ne_one (mt hc2.mp hp), select_zero, select_zero]

/-- Row `4096 t + r`: row `r` of the block at grid point `t`. -/
def gridRow (t : Fin 32) (r : Fin 4096) : Fin 131072 := ⟨4096 * t.val + r.val, by have := t.isLt; have := r.isLt; omega⟩

/-- A grid point is a core and one of its sixteen points. -/
def coreEquiv : Fin 2 × Fin 16 ≃ Fin 32 where
  toFun p := ⟨16 * p.1.val + p.2.val, by have := p.1.isLt; have := p.2.isLt; omega⟩
  invFun t := (⟨t.val / 16, by have := t.isLt; omega⟩, ⟨t.val % 16, by omega⟩)
  left_inv := by
    rintro ⟨c, j⟩
    have := c.isLt; have := j.isLt
    ext <;> simp <;> omega
  right_inv := by
    intro t
    ext; simp; omega

/-- A row is a grid point and a row of its block. -/
def gridEquiv : Fin 32 × Fin 4096 ≃ Fin 131072 where
  toFun p := gridRow p.1 p.2
  invFun n := (⟨n.val / 4096, by have := n.isLt; omega⟩, ⟨n.val % 4096, by omega⟩)
  left_inv := by
    rintro ⟨t, r⟩
    have := t.isLt; have := r.isLt
    ext <;> simp [gridRow] <;> omega
  right_inv := by
    intro n
    ext; simp [gridRow]; omega

/-- The kernel's arrangement of a sum over the rows — per core `c`, per block row `r`, over the core's sixteen points —
    is the sum over all rows. -/
theorem sum_cores (f : Fin 131072 → EReal) :
    (∑ c : Fin 2, ∑ r : Fin 4096, ∑ j ∈ Finset.range 16,
        (if h : 16 * c.val + j < 32 then f (gridRow ⟨16 * c.val + j, h⟩ r) else 0)) = ∑ n : Fin 131072, f n := by
  have hin : ∀ (c : Fin 2) (r : Fin 4096),
      (∑ j ∈ Finset.range 16, (if h : 16 * c.val + j < 32 then f (gridRow ⟨16 * c.val + j, h⟩ r) else 0))
        = ∑ j : Fin 16, f (gridRow (coreEquiv (c, j)) r) := by
    intro c r
    rw [Finset.sum_range]
    refine Finset.sum_congr rfl fun j _ => ?_
    have hlt : 16 * c.val + j.val < 32 := by have := c.isLt; have := j.isLt; omega
    rw [dif_pos hlt]; rfl
  calc _ = ∑ c : Fin 2, ∑ r : Fin 4096, ∑ j : Fin 16, f (gridRow (coreEquiv (c, j)) r) :=
        Finset.sum_congr rfl fun c _ => Finset.sum_congr rfl fun r _ => hin c r
    _ = ∑ c : Fin 2, ∑ j : Fin 16, ∑ r : Fin 4096, f (gridRow (coreEquiv (c, j)) r) :=
        Finset.sum_congr rfl fun c _ => Finset.sum_comm
    _ = ∑ q : Fin 2 × Fin 16, ∑ r : Fin 4096, f (gridRow (coreEquiv q) r) :=
        (Fintype.sum_prod_type (fun q : Fin 2 × Fin 16 => ∑ r : Fin 4096, f (gridRow (coreEquiv q) r))).symm
    _ = ∑ t : Fin 32, ∑ r : Fin 4096, f (gridRow t r) :=
        Equiv.sum_comp coreEquiv (fun t => ∑ r : Fin 4096, f (gridRow t r))
    _ = ∑ p : Fin 32 × Fin 4096, f (gridEquiv p) :=
        (Fintype.sum_prod_type (fun p : Fin 32 × Fin 4096 => f (gridEquiv p))).symm
    _ = ∑ n : Fin 131072, f n := Equiv.sum_comp gridEquiv f

/-- The reference's arrangement — over the `[131072, 512]` table — of the selected probabilities is the rows' total,
    when every row is finite. -/
theorem sum_table (X : Fin 131072 → Fin 512 → EReal) (hX : ∀ n j, ∃ r : ℝ, X n j = (r : EReal)) :
    (∑ i : (⟨2, ![131072, 512]⟩ : Shape).Idx, if softSel (X (i 0)) (i 1) = 1#1 then softP (X (i 0)) (i 1) else 0) = totAll X := by
  rw [sum_idx2]
  unfold totAll
  refine Finset.sum_congr rfl fun n _ => ?_
  exact sum_softSel (X n) (hX n)

/-- … and the number of selected entries of the table is the number of hits. -/
theorem card_table (X : Fin 131072 → Fin 512 → EReal) (hX : ∀ n j, ∃ r : ℝ, X n j = (r : EReal)) :
    (Finset.univ.filter fun i : (⟨2, ![131072, 512]⟩ : Shape).Idx => softSel (X (i 0)) (i 1) = 1#1).card = hits X := by
  unfold hits
  rw [Finset.card_filter, sum_idx2, Finset.card_filter]
  refine Finset.sum_congr rfl fun n _ => ?_
  rw [← card_softSel (X n) (hX n), Finset.card_filter]

/-- A host sum-reduction of a widened mask over BOTH axes of a table counts its set bits, when the table has fewer than
    2³² entries. -/
theorem toNat_reduce_count_all {n m : Nat} (hnm : n * m < 2 ^ 32) (mask : IVec ⟨2, ![n, m]⟩ 1) (hw : 1 < 32)
    (h : (⟨2, ![n, m]⟩ : Shape).ReducesTo [0, 1] ⟨0, ![]⟩) {u : Shape} (hu : 0 < u.numel) (j : (⟨0, ![]⟩ : Shape).Idx) :
    (Host.reduce IntOp.addi (extui 32 mask hw) (constantI u 32 0#32) h hu j).toNat
      = (Finset.univ.filter (fun i : (⟨2, ![n, m]⟩ : Shape).Idx => mask i = 1#1)).card := by
  classical
  rw [Host.reduce_eq_fold]
  have hval : ∀ i, (extui 32 mask hw i).toNat = if mask i = 1#1 then 1 else 0 :=
    fun i => StableHlo.Predicate.toNat_setWidth_bit (mask i)
  -- the result has rank 0: every index of the table drops to its one index
  have hall : (Finset.univ.filter fun i : (⟨2, ![n, m]⟩ : Shape).Idx => h.drop i = j) = Finset.univ :=
    Finset.filter_true_of_mem fun i _ => funext fun b => b.elim0
  have hcard : Fintype.card (⟨2, ![n, m]⟩ : Shape).Idx = n * m := by
    rw [Fintype.card_congr idxEquiv2, Fintype.card_prod, Fintype.card_fin, Fintype.card_fin]
  have hsum : ∑ i ∈ Finset.univ.filter (fun i : (⟨2, ![n, m]⟩ : Shape).Idx => h.drop i = j), (extui 32 mask hw i).toNat
      = (Finset.univ.filter (fun i : (⟨2, ![n, m]⟩ : Shape).Idx => mask i = 1#1)).card := by
    rw [hall, Finset.card_filter]
    exact Finset.sum_congr rfl fun i _ => hval i
  show (Finset.fold IntOp.addi 0#32 (extui 32 mask hw) (Finset.univ.filter fun i : (⟨2, ![n, m]⟩ : Shape).Idx => h.drop i = j)).toNat = _
  rw [StableHlo.Predicate.toNat_fold_addi _ _
    (by rw [hsum]; exact lt_of_le_of_lt (Finset.card_le_univ _) (by rw [hcard]; exact hnm)), hsum]

end Cert.Totals

end
-- ==== Proof.Rows.lean ====
/-
  The rows both programs read, and the scalar both return.

  The scores are `pred : [2048, 64, 512]` and the mask `mask : [2048, 64, 1]`.  Row `n = 64 a + b` of the flattened
  table is `j ↦ pred (a, b, j) · mask (a, b, 0)`.  Both programs return `answer pred mask`: the rows' total of
  `[thr < 1/s] · 1/s`, negated and divided by the number of rows that pass (at least one), or zero when none does.
-/
import proofs.«412284_j48619029790963_3_alg».proof.Proof.Totals

noncomputable section

namespace Cert.Rows

open Idealize.ShloMosaic Idealize.ShloMosaic.ValueIdx Cert.RowLaw Cert.Totals

/-- The leading coordinate `a = n / 64` of row `n`. -/
def rowA (n : Fin 131072) : Fin 2048 := ⟨n.val / 64, by have := n.isLt; omega⟩

/-- The middle coordinate `b = n % 64` of row `n`. -/
def rowB (n : Fin 131072) : Fin 64 := ⟨n.val % 64, Nat.mod_lt _ (by decide)⟩

/-- Row `n` of the masked scores. -/
def rows (pred : (⟨3, ![2048, 64, 512]⟩ : Shape).Idx → EReal) (mask : (⟨3, ![2048, 64, 1]⟩ : Shape).Idx → EReal)
    (n : Fin 131072) : Fin 512 → EReal :=
  fun j => pred (ix3 (rowA n) (rowB n) j) * mask (ix3 (rowA n) (rowB n) (0 : Fin 1))

/-- A product of finite numbers is finite: the rows of finite inputs are finite. -/
theorem rows_real (pred : (⟨3, ![2048, 64, 512]⟩ : Shape).Idx → EReal) (mask : (⟨3, ![2048, 64, 1]⟩ : Shape).Idx → EReal)
    (hp : ∀ i, ∃ r : ℝ, pred i = (r : EReal)) (hm : ∀ i, ∃ r : ℝ, mask i = (r : EReal)) :
    ∀ n j, ∃ r : ℝ, rows pred mask n j = (r : EReal) := by
  intro n j
  obtain ⟨a, ha⟩ := hp (ix3 (rowA n) (rowB n) j)
  obtain ⟨b, hb⟩ := hm (ix3 (rowA n) (rowB n) (0 : Fin 1))
  exact ⟨a * b, by unfold rows; rw [ha, hb, EReal.coe_mul]⟩

/-- Row `r` of a `[4096, 512]` block of flattened scores times its `[4096, 1]` block of mask entries. -/
def blockRow (x0 : (⟨2, ![4096, 512]⟩ : Shape).Idx → EReal) (x1 : (⟨2, ![4096, 1]⟩ : Shape).Idx → EReal)
    (r : Fin 4096) : Fin 512 → EReal := fun j => x0 (ix2 r j) * x1 (ix2 r (0 : Fin 1))

/-- The scalar both programs return. -/
def answer (pred : (⟨3, ![2048, 64, 512]⟩ : Shape).Idx → EReal) (mask : (⟨3, ![2048, 64, 1]⟩ : Shape).Idx → EReal) : EReal :=
  finish (totAll (rows pred mask)) ((hits (rows pred mask) : ℝ) : EReal)

end Cert.Rows

end
-- ==== Proof.KPayload.lean ====
/-
  The body's arithmetic, read at an index at the ideal values.

  For block row `r` the body forms `x j = pred (r, j) · mask (r, 0)`, the row maximum, `e j = exp (x j - M)`, the sum
  `s`, `1 / s`, the comparison with the threshold, and adds `[thr < 1/s] · 1/s` to the total accumulator and the
  float of the bit to the count accumulator: exactly `rowTot` and `rowCnt` of that row.  At the last point each
  accumulator is summed over its `4096` rows and the number is broadcast over the output block.
-/
import proofs.«412284_j48619029790963_3_alg».proof.Proof.Gen.KernelIdeal.Skeleton
import proofs.«412284_j48619029790963_3_alg».proof.Proof.Rows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Cert.KernelIdeal Cert.KernelIdeal.Gen
open Idealize.ShloMosaic Idealize.ShloMosaic.ValueIdx Cert.RowLaw Cert.Rows

/-! ### The layout operations and the lane reductions, read at an index -/

/-- A `[4096, 1]` column broadcast along the lanes reads, at `(r, j)`, the column at `(r, 0)`. -/
private theorem bcastCol_apply (c : FVec Ideal S4096x1 .f32) (h : S4096x1.Broadcasts S4096x512) (r : Fin 4096) (j : Fin 512) :
    broadcastTo S4096x512 c h (ix2 r j) = c (ix2 r (0 : Fin 1)) :=
  broadcastTo_apply c h (ix2 r j) (ix2 r (0 : Fin 1)) fun a => match a with
    | ⟨0, _⟩ => rfl
    | ⟨1, _⟩ => rfl

/-- A `[4096]` vector viewed as a `[4096, 1]` column reads, at `(r, 0)`, the vector at `r`. -/
private theorem colCast_apply (v : FVec Ideal S4096 .f32) (h : S4096.ShapeCasts S4096x1) (r : Fin 4096) :
    shapeCast S4096x1 v h (ix2 r (0 : Fin 1)) = v (ix1 r) :=
  shapeCast_apply v h (ix2 r (0 : Fin 1)) (ix1 r) (by
    rw [Shape.rowMajor_val_one, Shape.rowMajor_val_two]
    show r.val = r.val * 1 + 0
    omega)

/-- The source index over row `r` with lane `k` inserted is `(r, k)`. -/
private theorem lift_row (h : S4096x512.Reduces [1] S4096) (r : Fin 4096) (k : Fin 512) :
    h.lift (ix1 r) k = ix2 r k :=
  funext fun c => Fin.ext (match c with | ⟨0, _⟩ => rfl | ⟨1, _⟩ => rfl)

/-- The lane maximum of row `r`, folded from `-∞`. -/
private theorem laneMax_apply (src : FVec Ideal S4096x512 .f32) (h : S4096x512.Reduces [1] S4096) (hφ : FKind.Formats .f32)
    (hacc : (0xFF800000#32 : BitVec 32) = FKind.maximumf.neutral .f32 hφ) (r : Fin 4096) :
    multiReduction .maximumf [1] S4096 src 0xFF800000#32 h hφ hacc (ix1 r) = rowMax fun j => src (ix2 r j) := by
  refine (Ideal.multiReduction_maximumf_single src _ h hφ hacc (ix1 r)).trans ?_
  rw [Ideal.ofBits_def, ofBits_negInf]
  show (Finset.univ : Finset (Fin 512)).fold max ⊥ (fun k => src (h.lift (ix1 r) k))
      = (Finset.univ : Finset (Fin 512)).fold max ⊥ (fun j => src (ix2 r j))
  exact congrArg (fun f => (Finset.univ : Finset (Fin 512)).fold max ⊥ f) (funext fun k => congrArg src (lift_row h r k))

/-- The lane sum of row `r`. -/
private theorem laneSum_apply (src : FVec Ideal S4096x512 .f32) (h : S4096x512.Reduces [1] S4096) (hφ : FKind.Formats .f32)
    (hacc : (0x00000000#32 : BitVec 32) = FKind.add.neutral .f32 hφ) (r : Fin 4096) :
    multiReduction .add [1] S4096 src 0x00000000#32 h hφ hacc (ix1 r) = ∑ j : Fin 512, src (ix2 r j) := by
  refine (Ideal.multiReduction_add_single src _ h hφ hacc (ix1 r)).trans ?_
  show ∑ k : Fin 512, src (h.lift (ix1 r) k) = _
  exact Finset.sum_congr rfl fun k _ => congrArg src (lift_row h r k)

/-- From the masked scores `v` of a block, the chain maximum, `exp (· - M)`, sum, reciprocal gives `1 / s` of row `r`. -/
private theorem inv_chain (v : FVec Ideal S4096x512 .f32) (hr : S4096x512.Reduces [1] S4096) (hc : S4096.ShapeCasts S4096x1)
    (hb : S4096x1.Broadcasts S4096x512) (hφ : FKind.Formats .f32)
    (hm : (0xFF800000#32 : BitVec 32) = FKind.maximumf.neutral .f32 hφ)
    (ha : (0x00000000#32 : BitVec 32) = FKind.add.neutral .f32 hφ) (r : Fin 4096) :
    divf (broadcast S4096x1 (Scalar.ofBits (F := Ideal) .f32 0x3F800000#32))
        (shapeCast S4096x1 (multiReduction .add [1] S4096
          (exp (subf v (broadcastTo S4096x512
            (shapeCast S4096x1 (multiReduction .maximumf [1] S4096 v 0xFF800000#32 hr hφ hm) hc) hb)))
          0x00000000#32 hr hφ ha) hc) (ix2 r (0 : Fin 1))
      = rowInv fun j => v (ix2 r j) := by
  rw [divf_apply, broadcast_apply, colCast_apply, laneSum_apply]
  show Ideal.div (Ideal.ofBits .f32 0x3F800000#32) _ = _
  rw [ofBits_one]
  unfold rowInv rowSum
  refine congrArg (Ideal.div 1) (Finset.sum_congr rfl fun j _ => ?_)
  show Ideal.exp (subf v _ (ix2 r j)) = rowExp _ j
  rw [subf_apply, bcastCol_apply, colCast_apply, laneMax_apply]
  rfl

/-! ### The payloads of the row step -/

/-- `1 / s` of block row `r`. -/
theorem pay5_apply (x0 : Vec Ideal S4096x512 .f32) (x1 : Vec Ideal S4096x1 .f32) (r : Fin 4096) :
    k0_pay5 (F := Ideal) x0 x1 (ix2 r (0 : Fin 1)) = rowInv (blockRow x0 x1 r) := by
  unfold k0_pay5
  refine (inv_chain _ _ _ _ _ _ _ r).trans ?_
  refine congrArg rowInv (funext fun j => ?_)
  rw [mulf_apply, bcastCol_apply, shapeCast_self, shapeCast_self]
  rfl

/-- The comparison bit of block row `r`. -/
theorem pay6_apply (x0 : Vec Ideal S4096x512 .f32) (x1 : Vec Ideal S4096x1 .f32) (r : Fin 4096) :
    k0_pay6 (F := Ideal) x0 x1 (ix2 r (0 : Fin 1)) = rowHit (blockRow x0 x1 r) := by
  unfold k0_pay6
  show FloatOps.cmpf .ogt (k0_pay5 (F := Ideal) x0 x1 (ix2 r (0 : Fin 1))) _ = _
  rw [pay5_apply]
  rfl

/-- The total accumulator's update at row `r`. -/
theorem pay7_apply (x0 : Vec Ideal S4096x512 .f32) (x1 : Vec Ideal S4096x1 .f32) (acc : Vec Ideal S4096x1 .f32) (r : Fin 4096) :
    k0_pay7 (F := Ideal) x0 x1 acc (ix2 r (0 : Fin 1)) = acc (ix2 r (0 : Fin 1)) + rowTot (blockRow x0 x1 r) := by
  unfold k0_pay7
  rw [shapeCast_self, addf_apply, select_apply, pay6_apply, pay5_apply, broadcast_apply]
  unfold rowTot
  rcases bit_cases (rowHit (blockRow x0 x1 r)) with h | h
  · rw [h, select_zero, if_neg (by decide)]
    exact congrArg (acc (ix2 r (0 : Fin 1)) + ·) Ideal.ofBits_zero_f32
  · rw [h, select_one, if_pos rfl]

/-- The count accumulator's update at row `r`. -/
theorem pay8_apply (x0 : Vec Ideal S4096x512 .f32) (x1 : Vec Ideal S4096x1 .f32) (acc : Vec Ideal S4096x1 .f32) (r : Fin 4096) :
    k0_pay8 (F := Ideal) x0 x1 acc (ix2 r (0 : Fin 1)) = acc (ix2 r (0 : Fin 1)) + rowCnt (blockRow x0 x1 r) := by
  unfold k0_pay8
  rw [shapeCast_self, addf_apply, sitofp_apply, extui_apply, pay6_apply]
  rfl

/-- The cleared accumulators hold zero. -/
theorem pay3_apply (r : Fin 4096) : (k0_pay3 (F := Ideal)) (ix2 r (0 : Fin 1)) = (0 : EReal) := by
  unfold k0_pay3
  rw [shapeCast_self]
  exact Ideal.ofBits_zero_f32

theorem pay4_apply (r : Fin 4096) : (k0_pay4 (F := Ideal)) (ix2 r (0 : Fin 1)) = (0 : EReal) := by
  unfold k0_pay4
  rw [shapeCast_self]
  exact Ideal.ofBits_zero_f32

/-! ### The payloads of the last point -/

/-- The indices of a `[1, 4096, 1]` array are its `4096` middle coordinates. -/
private def midEquiv : S1x4096x1.Idx ≃ Fin 4096 where
  toFun i := i 1
  invFun r := ix3 (0 : Fin 1) r (0 : Fin 1)
  left_inv i := funext fun a => match a with
    | ⟨0, _⟩ => Fin.ext (by
        have h0 : (i 0).val < 1 := (i 0).isLt
        show 0 = (i 0).val
        omega)
    | ⟨1, _⟩ => rfl
    | ⟨2, _⟩ => Fin.ext (by
        have h2 : (i 2).val < 1 := (i 2).isLt
        show 0 = (i 2).val
        omega)
  right_inv _ := rfl

/-- An accumulator column summed over every entry, the number then spread over the output block. -/
private theorem total_chain (v : FVec Ideal S4096x1 .f32) (hc : S4096x1.ShapeCasts S1x4096x1) (hr : S1x4096x1.Reduces [1, 2] S1)
    (hφ : FKind.Formats .f32) (ha : (0x00000000#32 : BitVec 32) = FKind.add.neutral .f32 hφ)
    (hc' : S1.ShapeCasts S1x1x1) (hp : ∀ a, (![0, 0, 0] : Fin 3 → Nat) a < S1x1x1.size a) (y : S1x8x128.Idx) :
    broadcast S1x8x128 (extractAt ![0, 0, 0]
        (shapeCast S1x1x1 (multiReduction .add [1, 2] S1 (shapeCast S1x4096x1 v hc) 0x00000000#32 hr hφ ha) hc') hp) y
      = ∑ r : Fin 4096, v (ix2 r (0 : Fin 1)) := by
  rw [broadcast_apply]
  unfold extractAt
  refine (shapeCast_apply _ hc' _ (ix1 (0 : Fin 1)) (by
    rw [Shape.rowMajor_val_one, Shape.rowMajor_val_three]
    rfl)).trans ?_
  refine (Ideal.multiReduction_add_total _ _ hr (fun b => match b with | ⟨0, _⟩ => rfl) hφ ha _).trans ?_
  refine (Equiv.sum_comp midEquiv.symm (shapeCast S1x4096x1 v hc)).symm.trans ?_
  exact Finset.sum_congr rfl fun r _ => shapeCast_ab_1ab_apply v hc (0 : Fin 1) r (0 : Fin 1)

/-- The output block of totals: the accumulator summed over its rows, at every entry. -/
theorem pay1_apply (v : Vec Ideal S4096x1 .f32) (y : S1x8x128.Idx) :
    k0_pay1 (F := Ideal) v y = ∑ r : Fin 4096, v (ix2 r (0 : Fin 1)) := by
  unfold k0_pay1
  exact total_chain v _ _ _ _ _ _ y

/-- The output block of counts, likewise. -/
theorem pay2_apply (v : Vec Ideal S4096x1 .f32) (y : S1x8x128.Idx) :
    k0_pay2 (F := Ideal) v y = ∑ r : Fin 4096, v (ix2 r (0 : Fin 1)) := by
  unfold k0_pay2
  exact total_chain v _ _ _ _ _ _ y

end Cert.KernelIdeal.KValue

end
-- ==== Proof.KBlocks.lean ====
/-
  The windows' blocks, in terms of the argument arrays.

  Before the region the host flattens `pred` to `[131072, 512]` and `mask` to `[131072, 1]`.  At grid point `t`
  the two input windows hold rows `4096 t … 4096 t + 4095` of those tables, so block row `r` of point `t` is row
  `4096 t + r` of the masked scores.  `tv` and `cv` are a grid point's contributions at a block row, extended by
  zero beyond the grid so that sums over a range of points need no bound.
-/
import proofs.«412284_j48619029790963_3_alg».proof.Proof.Gen.KernelIdeal.Frame
import proofs.«412284_j48619029790963_3_alg».proof.Proof.Rows
import Idealize.ShloMosaic.Lib.ValueIdx
import Idealize.ShloMosaic.Lib.Pipeline.Value
import Idealize.ShloMosaic.Lib.StableHlo.Run

noncomputable section

namespace Cert.KernelIdeal.KValue

open Cert.KernelIdeal Cert.KernelIdeal.Gen
open Idealize.ShloMosaic Idealize.ShloMosaic.TcCoe Idealize.SL.Sem Idealize.ShloMosaic.ValueIdx
open Cert.RowLaw Cert.Totals Cert.Rows

variable {F : FTy → Type} [FloatOps F]

/-- The score window's block at a point, at its literal type. -/
abbrev blk0 (m : (ℓ : Loc nD τ sig) → Buf (Elt F) ℓ) (c : Dev nD) (t : Fin cfg0.N) : Vec F S4096x512 .f32 := iblk m c 0 t

/-- The mask window's block at a point, at its literal type. -/
abbrev blk1 (m : (ℓ : Loc nD τ sig) → Buf (Elt F) ℓ) (c : Dev nD) (t : Fin cfg0.N) : Vec F S4096x1 .f32 := iblk m c 1 t

/-- A grid point as a number below `32`. -/
def pt (t : Fin cfg0.N) : Fin 32 := ⟨t.val, lt_of_lt_of_eq t.isLt N_0⟩

variable (m : (ℓ : Loc nD τ sig) → Buf (Elt Ideal) ℓ)

/-- The score window's index map over the grid: point `t` takes block row `t`, block column `0`. -/
theorem idx0 : ∀ t : Fin cfg0.N, win0_0.index t 0 = t.val ∧ win0_0.index t 1 = 0 :=
  (by decide +kernel : ∀ t : Fin grid0.N, win0_0.index t 0 = t.val ∧ win0_0.index t 1 = 0)

/-- The mask window's index map over the grid: the same. -/
theorem idx1 : ∀ t : Fin cfg0.N, win0_1.index t 0 = t.val ∧ win0_1.index t 1 = 0 :=
  (by decide +kernel : ∀ t : Fin grid0.N, win0_1.index t 0 = t.val ∧ win0_1.index t 1 = 0)

/-- The flattened score table the region finds is the reshape of the scores. -/
theorem V_v0 (c : Dev nD) :
    (V m c main_v0 : S131072x512.Idx → EReal)
      = shapeCast S131072x512 (m ((c : Thread nD τ).loc main_arg0)) shapeCasts_S2048x64x512_S131072x512 := by
  show StableHlo.after hostOps0 (fun b => m (c, b)) (Proc.devRef .tc main_v0) = _
  after_results
  rfl

/-- The flattened mask table the region finds is the reshape of the mask. -/
theorem V_v1 (c : Dev nD) :
    (V m c main_v1 : S131072x1.Idx → EReal)
      = shapeCast S131072x1 (m ((c : Thread nD τ).loc main_arg1)) shapeCasts_S2048x64x1_S131072x1 := by
  show StableHlo.after hostOps0 (fun b => m (c, b)) (Proc.devRef .tc main_v1) = _
  after_results
  rfl

/-- Entry `(n, j)` of the flattened score table is the score at `(n / 64, n % 64, j)`: the same row-major position. -/
theorem V_v0_apply (c : Dev nD) (n : Fin 131072) (j : Fin 512) :
    (V m c main_v0 : S131072x512.Idx → EReal) (ix2 n j)
      = m ((c : Thread nD τ).loc main_arg0) (ix3 (rowA n) (rowB n) j) := by
  rw [V_v0]
  refine shapeCast_apply _ _ (ix2 n j) (ix3 (rowA n) (rowB n) j) ?_
  rw [Shape.rowMajor_val_three, Shape.rowMajor_val_two]
  show (n.val / 64 * 64 + n.val % 64) * 512 + j.val = n.val * 512 + j.val
  omega

/-- Entry `(n, 0)` of the flattened mask table is the mask at `(n / 64, n % 64, 0)`. -/
theorem V_v1_apply (c : Dev nD) (n : Fin 131072) :
    (V m c main_v1 : S131072x1.Idx → EReal) (ix2 n (0 : Fin 1))
      = m ((c : Thread nD τ).loc main_arg1) (ix3 (rowA n) (rowB n) (0 : Fin 1)) := by
  rw [V_v1]
  refine shapeCast_apply _ _ (ix2 n (0 : Fin 1)) (ix3 (rowA n) (rowB n) (0 : Fin 1)) ?_
  rw [Shape.rowMajor_val_three, Shape.rowMajor_val_two]
  show (n.val / 64 * 64 + n.val % 64) * 1 + 0 = n.val * 1 + 0
  omega

/-- Entry `(r, j)` of the score block at point `t` is entry `(4096 t + r, j)` of the flattened table. -/
theorem blk0_apply (c : Dev nD) (t : Fin cfg0.N) (r : Fin 4096) (j : Fin 512) :
    blk0 m c t (ix2 r j) = (V m c main_v0 : S131072x512.Idx → EReal) (ix2 (gridRow (pt t) r) j) := by
  have hi := idx0 t
  unfold blk0 iblk
  rw [View.read_apply]
  show V m c main_v0 _ = V m c main_v0 _
  congr 1
  funext a
  apply Fin.ext
  match a with
  | ⟨0, _⟩ => show win0_0.index t 0 * 4096 + 1 * r.val = 4096 * t.val + r.val; rw [hi.1]; omega
  | ⟨1, _⟩ => show win0_0.index t 1 * 512 + 1 * j.val = j.val; rw [hi.2]; omega

/-- Entry `(r, 0)` of the mask block at point `t` is entry `(4096 t + r, 0)` of the flattened table. -/
theorem blk1_apply (c : Dev nD) (t : Fin cfg0.N) (r : Fin 4096) :
    blk1 m c t (ix2 r (0 : Fin 1)) = (V m c main_v1 : S131072x1.Idx → EReal) (ix2 (gridRow (pt t) r) (0 : Fin 1)) := by
  have hi := idx1 t
  unfold blk1 iblk
  rw [View.read_apply]
  show V m c main_v1 _ = V m c main_v1 _
  congr 1
  funext a
  apply Fin.ext
  match a with
  | ⟨0, _⟩ => show win0_1.index t 0 * 4096 + 1 * r.val = 4096 * t.val + r.val; rw [hi.1]; omega
  | ⟨1, _⟩ => show win0_1.index t 1 * 1 + 1 * 0 = 0; rw [hi.2]

/-- Block row `r` of point `t` is row `4096 t + r` of the masked scores. -/
theorem blockRow_blk (c : Dev nD) (t : Fin cfg0.N) (r : Fin 4096) :
    blockRow (blk0 m c t) (blk1 m c t) r
      = rows (m ((c : Thread nD τ).loc main_arg0)) (m ((c : Thread nD τ).loc main_arg1)) (gridRow (pt t) r) := by
  funext j
  show blk0 m c t (ix2 r j) * blk1 m c t (ix2 r (0 : Fin 1)) = _
  rw [blk0_apply m c t r j, blk1_apply m c t r, V_v0_apply, V_v1_apply]
  rfl

/-- Point `n`'s contribution to the total at block row `r` (zero beyond the grid). -/
def tv (c : Dev nD) (n : ℕ) (r : Fin 4096) : EReal :=
  if h : n < cfg0.N then rowTot (blockRow (blk0 m c ⟨n, h⟩) (blk1 m c ⟨n, h⟩) r) else 0

/-- Point `n`'s contribution to the count at block row `r` (zero beyond the grid). -/
def cv (c : Dev nD) (n : ℕ) (r : Fin 4096) : EReal :=
  if h : n < cfg0.N then rowCnt (blockRow (blk0 m c ⟨n, h⟩) (blk1 m c ⟨n, h⟩) r) else 0

theorem tv_eq (c : Dev nD) (n : ℕ) (r : Fin 4096) :
    tv m c n r = if h : n < 32 then rowTot (rows (m ((c : Thread nD τ).loc main_arg0)) (m ((c : Thread nD τ).loc main_arg1)) (gridRow ⟨n, h⟩ r)) else 0 := by
  have hN : cfg0.N = 32 := N_0
  unfold tv
  by_cases h : n < 32
  · rw [dif_pos (lt_of_lt_of_eq h hN.symm), dif_pos h, blockRow_blk]
    rfl
  · rw [dif_neg (fun h' => h (lt_of_lt_of_eq h' hN)), dif_neg h]

theorem cv_eq (c : Dev nD) (n : ℕ) (r : Fin 4096) :
    cv m c n r = if h : n < 32 then rowCnt (rows (m ((c : Thread nD τ).loc main_arg0)) (m ((c : Thread nD τ).loc main_arg1)) (gridRow ⟨n, h⟩ r)) else 0 := by
  have hN : cfg0.N = 32 := N_0
  unfold cv
  by_cases h : n < 32
  · rw [dif_pos (lt_of_lt_of_eq h hN.symm), dif_pos h, blockRow_blk]
    rfl
  · rw [dif_neg (fun h' => h (lt_of_lt_of_eq h' hN)), dif_neg h]

end Cert.KernelIdeal.KValue

end
-- ==== Proof.KInvariant.lean ====
/-
  The accumulators after each grid point.

  A core's sixteen consecutive points `16 q, …, 16 q + 15` clear the two scratch accumulators at the first and add a
  block's per-row contributions at each.  So after point `n` the total accumulator holds, at block row `r`, the sum of
  the contributions of the points `n - n % 16, …, n` at that row, and the count accumulator likewise; at the last
  point of a run the output blocks hold those sums added over the `4096` rows.  By induction on the point.
-/
import proofs.«412284_j48619029790963_3_alg».proof.Proof.KPieces
import proofs.«412284_j48619029790963_3_alg».proof.Proof.KPayload
import proofs.«412284_j48619029790963_3_alg».proof.Proof.KBlocks

noncomputable section

namespace Cert.KernelIdeal.KValue

open Cert.KernelIdeal Cert.KernelIdeal.Gen
open Idealize.ShloMosaic Idealize.ShloMosaic.TcCoe Idealize.SL.Sem Idealize.ShloMosaic.ValueIdx
open Cert.RowLaw Cert.Totals Cert.Rows

variable (m : (ℓ : Loc nD τ sig) → Buf (Elt Ideal) ℓ)

/-! ## One point's effect on the accumulators -/

/-- At the first point of a run the total accumulator is cleared and then holds this point's contribution alone. -/
theorem tot_first (c : Dev nD) (n : ℕ) (h : n < cfg0.N) (h0 : n % 16 = 0) (r : Fin 4096) :
    (outsAt0 m c n h).2.2.1 (ix2 r (0 : Fin 1)) = tv m c n r := by
  have h1 : ¬n % 16 = 15 := by omega
  rw [outsAt0_A m c ⟨n, h⟩ h0 h1]
  dsimp only
  refine (congrFun (sout_A_0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩)) (ix2 r (0 : Fin 1))).trans ?_
  rw [pay7_apply, pay3_apply, zero_add]
  unfold tv
  rw [dif_pos h]

/-- The count accumulator at the first point of a run. -/
theorem cnt_first (c : Dev nD) (n : ℕ) (h : n < cfg0.N) (h0 : n % 16 = 0) (r : Fin 4096) :
    (outsAt0 m c n h).2.2.2 (ix2 r (0 : Fin 1)) = cv m c n r := by
  have h1 : ¬n % 16 = 15 := by omega
  rw [outsAt0_A m c ⟨n, h⟩ h0 h1]
  dsimp only
  refine (congrFun (sout_A_1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩)) (ix2 r (0 : Fin 1))).trans ?_
  rw [pay8_apply, pay4_apply, zero_add]
  unfold cv
  rw [dif_pos h]

/-- At a later point of a run the total accumulator is the payload of what the point before left, whether the point
    is a middle one or the last. -/
theorem tot_later (c : Dev nD) (n : ℕ) (h : n < cfg0.N) (h0 : ¬n % 16 = 0) :
    (outsAt0 m c n h).2.2.1 = k0_pay7 (iblk m c 0 ⟨n, h⟩) (iblk m c 1 ⟨n, h⟩) (outsAt0 m c (n - 1) (Nat.lt_of_le_of_lt (Nat.sub_le _ _) h)).2.2.1 := by
  by_cases h1 : n % 16 = 15
  · rw [outsAt0_C m c ⟨n, h⟩ h0 h1]
    dsimp only
    exact sout_C_0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) (fun hh => h0 ((hcond0_0 ⟨n, h⟩).mp hh)) ((hcond0_1 ⟨n, h⟩).mpr h1) (iblk m c 0 ⟨n, h⟩) (iblk m c 1 ⟨n, h⟩) _ _
  · rw [outsAt0_B m c ⟨n, h⟩ h0 h1]
    dsimp only
    exact sout_B_0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) (fun hh => h0 ((hcond0_0 ⟨n, h⟩).mp hh)) (fun hh => h1 ((hcond0_1 ⟨n, h⟩).mp hh)) (iblk m c 0 ⟨n, h⟩) (iblk m c 1 ⟨n, h⟩) _ _

/-- The count accumulator at a later point of a run. -/
theorem cnt_later (c : Dev nD) (n : ℕ) (h : n < cfg0.N) (h0 : ¬n % 16 = 0) :
    (outsAt0 m c n h).2.2.2 = k0_pay8 (iblk m c 0 ⟨n, h⟩) (iblk m c 1 ⟨n, h⟩) (outsAt0 m c (n - 1) (Nat.lt_of_le_of_lt (Nat.sub_le _ _) h)).2.2.2 := by
  by_cases h1 : n % 16 = 15
  · rw [outsAt0_C m c ⟨n, h⟩ h0 h1]
    dsimp only
    exact sout_C_1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) (fun hh => h0 ((hcond0_0 ⟨n, h⟩).mp hh)) ((hcond0_1 ⟨n, h⟩).mpr h1) (iblk m c 0 ⟨n, h⟩) (iblk m c 1 ⟨n, h⟩) _ _
  · rw [outsAt0_B m c ⟨n, h⟩ h0 h1]
    dsimp only
    exact sout_B_1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) (fun hh => h0 ((hcond0_0 ⟨n, h⟩).mp hh)) (fun hh => h1 ((hcond0_1 ⟨n, h⟩).mp hh)) (iblk m c 0 ⟨n, h⟩) (iblk m c 1 ⟨n, h⟩) _ _

/-- So a later point adds its own contribution to the total the point before left. -/
theorem tot_step (c : Dev nD) (k : ℕ) (h : k + 1 < cfg0.N) (h0 : ¬(k + 1) % 16 = 0) (r : Fin 4096) :
    (outsAt0 m c (k + 1) h).2.2.1 (ix2 r (0 : Fin 1))
      = (outsAt0 m c k (Nat.lt_of_succ_lt h)).2.2.1 (ix2 r (0 : Fin 1)) + tv m c (k + 1) r := by
  rw [tot_later m c (k + 1) h h0, pay7_apply]
  unfold tv
  rw [dif_pos h]
  rfl

/-- and likewise for the count. -/
theorem cnt_step (c : Dev nD) (k : ℕ) (h : k + 1 < cfg0.N) (h0 : ¬(k + 1) % 16 = 0) (r : Fin 4096) :
    (outsAt0 m c (k + 1) h).2.2.2 (ix2 r (0 : Fin 1))
      = (outsAt0 m c k (Nat.lt_of_succ_lt h)).2.2.2 (ix2 r (0 : Fin 1)) + cv m c (k + 1) r := by
  rw [cnt_later m c (k + 1) h h0, pay8_apply]
  unfold cv
  rw [dif_pos h]
  rfl

/-! ## The accumulators after each point -/

/-- The total accumulator after point `n`, at block row `r`. -/
theorem acc_tot (c : Dev nD) (n : ℕ) (h : n < cfg0.N) (r : Fin 4096) :
    (outsAt0 m c n h).2.2.1 (ix2 r (0 : Fin 1)) = ∑ j ∈ Finset.range (n % 16 + 1), tv m c (n - n % 16 + j) r := by
  induction n with
  | zero => rw [tot_first m c 0 h rfl r]; simp
  | succ k ih =>
    by_cases h0 : (k + 1) % 16 = 0
    · rw [tot_first m c (k + 1) h h0 r, h0]; simp
    · have e1 : (k + 1) % 16 = k % 16 + 1 := by omega
      have e2 : k + 1 - (k % 16 + 1) = k - k % 16 := by omega
      have e3 : k - k % 16 + (k % 16 + 1) = k + 1 := by omega
      rw [tot_step m c k h h0 r, e1, e2, Finset.sum_range_succ, e3, ih (Nat.lt_of_succ_lt h)]

/-- The count accumulator after point `n`, at block row `r`. -/
theorem acc_cnt (c : Dev nD) (n : ℕ) (h : n < cfg0.N) (r : Fin 4096) :
    (outsAt0 m c n h).2.2.2 (ix2 r (0 : Fin 1)) = ∑ j ∈ Finset.range (n % 16 + 1), cv m c (n - n % 16 + j) r := by
  induction n with
  | zero => rw [cnt_first m c 0 h rfl r]; simp
  | succ k ih =>
    by_cases h0 : (k + 1) % 16 = 0
    · rw [cnt_first m c (k + 1) h h0 r, h0]; simp
    · have e1 : (k + 1) % 16 = k % 16 + 1 := by omega
      have e2 : k + 1 - (k % 16 + 1) = k - k % 16 := by omega
      have e3 : k - k % 16 + (k % 16 + 1) = k + 1 := by omega
      rw [cnt_step m c k h h0 r, e1, e2, Finset.sum_range_succ, e3, ih (Nat.lt_of_succ_lt h)]

/-- The totals' output block after the last point of a run: every entry the run's whole sum. -/
theorem out2_last (c : Dev nD) (n : ℕ) (h : n < cfg0.N) (h15 : n % 16 = 15) (y : S1x8x128.Idx) :
    (outsAt0 m c n h).1 y = ∑ r : Fin 4096, ∑ j ∈ Finset.range 16, tv m c (n - 15 + j) r := by
  have h0 : ¬n % 16 = 0 := by omega
  have hacc := tot_later m c n h h0
  rw [outsAt0_C m c ⟨n, h⟩ h0 h15]
  dsimp only
  refine (congrFun (out_C_2 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) (fun hh => h0 ((hcond0_0 ⟨n, h⟩).mp hh)) ((hcond0_1 ⟨n, h⟩).mpr h15) (iblk m c 0 ⟨n, h⟩) (iblk m c 1 ⟨n, h⟩) (outsAt0 m c (n - 1) (Nat.lt_of_le_of_lt (Nat.sub_le _ _) h)).2.2.1 (outsAt0 m c (n - 1) (Nat.lt_of_le_of_lt (Nat.sub_le _ _) h)).2.2.2) y).trans ?_
  rw [pay1_apply, ← hacc]
  refine Finset.sum_congr rfl fun r _ => ?_
  rw [acc_tot m c n h r, h15]

/-- The counts' output block after the last point of a run. -/
theorem out3_last (c : Dev nD) (n : ℕ) (h : n < cfg0.N) (h15 : n % 16 = 15) (y : S1x8x128.Idx) :
    (outsAt0 m c n h).2.1 y = ∑ r : Fin 4096, ∑ j ∈ Finset.range 16, cv m c (n - 15 + j) r := by
  have h0 : ¬n % 16 = 0 := by omega
  have hacc := cnt_later m c n h h0
  rw [outsAt0_C m c ⟨n, h⟩ h0 h15]
  dsimp only
  refine (congrFun (out_C_3 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) (fun hh => h0 ((hcond0_0 ⟨n, h⟩).mp hh)) ((hcond0_1 ⟨n, h⟩).mpr h15) (iblk m c 0 ⟨n, h⟩) (iblk m c 1 ⟨n, h⟩) (outsAt0 m c (n - 1) (Nat.lt_of_le_of_lt (Nat.sub_le _ _) h)).2.2.1 (outsAt0 m c (n - 1) (Nat.lt_of_le_of_lt (Nat.sub_le _ _) h)).2.2.2) y).trans ?_
  rw [pay2_apply, ← hacc]
  refine Finset.sum_congr rfl fun r _ => ?_
  rw [acc_cnt m c n h r, h15]

end Cert.KernelIdeal.KValue

end
-- ==== Proof.KTail.lean ====
/-
  The host lines after the region, as one function of the two `[2, 8, 128]` arrays.

  From each array the host takes entry `(q, 0, 0)` of both blocks (a slice, a reshape), adds the two entries to an initial
  zero, and returns `-total / max count 1` where the count is positive and zero elsewhere.
-/
import proofs.«412284_j48619029790963_3_alg».proof.Proof.Gen.KernelIdeal
import proofs.«412284_j48619029790963_3_alg».proof.Proof.Totals
import Idealize.ShloMosaic.Lib.ValueIdx
import Idealize.ShloMosaic.Lib.Pipeline.Value
import Idealize.ShloMosaic.PureOps.Ideal.Laws

noncomputable section

namespace Cert.KernelIdeal.KValue

open Cert.KernelIdeal
open Idealize.ShloMosaic Idealize.ShloMosaic.ValueIdx Cert.Totals
open Cert.KernelIdeal.Facts₀

/-- Entry `(q, 0, 0)` of the two blocks of an array, added to the initial zero. -/
def coreSum (A : Vec Ideal S2x8x128 .f32) : Vec Ideal S_ .f32 :=
  Host.reduceAdd (shapeCast S2 (extractStridedSlice S2x1x1 ![0, 0, 0] A slices_S2x8x128_S2x1x1_0_0_0) shapeCasts_S2x1x1_S2)
    (constant (F := Ideal) S_ .f32 0x00000000#32) reducesTo_S2_S_d0 h_S_

/-- The host's closing arithmetic on the totals array `A2` and the counts array `A3`. -/
def tailFn (A2 A3 : Vec Ideal S2x8x128 .f32) : Vec Ideal S_ .f32 :=
  select (cmpf .ogt (coreSum A3) (constant (F := Ideal) S_ .f32 0x00000000#32))
    (Host.divf (Host.negf (coreSum A2)) (maximumf (coreSum A3) (constant (F := Ideal) S_ .f32 0x3F800000#32)))
    (constant (F := Ideal) S_ .f32 0x00000000#32)

/-- The `[2, 1, 1]` slice at offset zero, read at `(k, 0, 0)`, is the array at `(k, 0, 0)`. -/
theorem slice_apply (A : Vec Ideal S2x8x128 .f32) (k : Fin 2) :
    extractStridedSlice S2x1x1 ![0, 0, 0] A slices_S2x8x128_S2x1x1_0_0_0 (ix3 k (0 : Fin 1) (0 : Fin 1))
      = A (ix3 k (0 : Fin 8) (0 : Fin 128)) := by
  refine extractStridedSlice_apply _ A _ _ _ fun a => ?_
  match a with
  | ⟨0, _⟩ => exact (Nat.zero_add _).symm
  | ⟨1, _⟩ => rfl
  | ⟨2, _⟩ => rfl

/-- The reshape to `[2]`, read at `k`, is the `[2, 1, 1]` array at `(k, 0, 0)`: both sit at row-major position `k`. -/
theorem cast_apply (B : Vec Ideal S2x1x1 .f32) (k : Fin 2) :
    shapeCast S2 B shapeCasts_S2x1x1_S2 (ix1 k) = B (ix3 k (0 : Fin 1) (0 : Fin 1)) := by
  refine shapeCast_apply B _ _ _ ?_
  rw [Shape.rowMajor_val_three, Shape.rowMajor_val_one]
  show (k.val * 1 + 0) * 1 + 0 = k.val
  omega

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- The sum over the two cores, read. -/
theorem coreSum_apply (A : Vec Ideal S2x8x128 .f32) (i : S_.Idx) :
    coreSum A i = A (ix3 (0 : Fin 2) (0 : Fin 8) (0 : Fin 128)) + A (ix3 (1 : Fin 2) (0 : Fin 8) (0 : Fin 128)) := by
  unfold coreSum
  simp only [Host.reduceAdd, Ideal.hostReduceAdd_def]
  rw [Ideal.hostReduceAdd_total reducesTo_S2_S_d0 (fun b => b.elim0), ← Equiv.sum_comp idxEquiv1.symm]
  show _ + ∑ k : Fin 2, _ = _
  rw [Fin.sum_univ_two]
  show _ + (shapeCast S2 _ shapeCasts_S2x1x1_S2 (ix1 (0 : Fin 2)) + shapeCast S2 _ shapeCasts_S2x1x1_S2 (ix1 (1 : Fin 2))) = _
  rw [cast_apply, cast_apply, slice_apply, slice_apply, constant_apply, Ideal.ofBits_zero_f32, zero_add]

/-- The closing arithmetic, read: the scalar `finish` of the two sums. -/
theorem tailFn_apply (A2 A3 : Vec Ideal S2x8x128 .f32) (i : S_.Idx) :
    tailFn A2 A3 i
      = finish (A2 (ix3 (0 : Fin 2) (0 : Fin 8) (0 : Fin 128)) + A2 (ix3 (1 : Fin 2) (0 : Fin 8) (0 : Fin 128)))
          (A3 (ix3 (0 : Fin 2) (0 : Fin 8) (0 : Fin 128)) + A3 (ix3 (1 : Fin 2) (0 : Fin 8) (0 : Fin 128))) := by
  unfold tailFn finish
  simp only [select_apply, cmpf_apply, maximumf_apply, constant_apply, Host.divf, Host.negf, Ideal.hostDivf_def,
    Ideal.hostNegf_def, Ideal.negf_def, Ideal.cmpf_def, coreSum_apply]

end Cert.KernelIdeal.KValue

end
-- ==== Proof.KFinal.lean ====
/-
  What the kernel's program returns.

  Each core's run of sixteen points ends by writing its two output blocks: every entry of block `q` of the totals array
  is core `q`'s total — the contributions of points `16 q … 16 q + 15` added over the `4096` block rows — and likewise
  for the counts.  The two blocks tile each `[2, 8, 128]` array, so after the run the arrays are known everywhere.  The host
  then reads entry `(q, 0, 0)` of each, adds over the two cores, and returns `-total / max count 1` when the count is
  positive, else zero.  Re-arranged over the rows that is `answer pred mask`.
-/
import proofs.«412284_j48619029790963_3_alg».proof.Proof.KInvariant
import proofs.«412284_j48619029790963_3_alg».proof.Proof.KBlocks
import proofs.«412284_j48619029790963_3_alg».proof.Proof.KTail
import Idealize.ShloMosaic.Lib.Pipeline.Value
import Idealize.ShloMosaic.Lib.Pipeline.FrameSuffix
import Idealize.ShloMosaic.Lib.StableHlo.Run
import Idealize.ShloMosaic.PureOps.Ideal.Laws

noncomputable section

namespace Cert.KernelIdeal.KValue

open Cert.KernelIdeal Cert.KernelIdeal.Gen
open Idealize.ShloMosaic Idealize.ShloMosaic.TcCoe Idealize.SL.Sem Idealize.ShloMosaic.ValueIdx
open Idealize.ShloMosaic.Pipeline (Dat)
open Cert.RowLaw Cert.Totals Cert.Rows

variable (m : (ℓ : Loc nD τ sig) → Buf (Elt Ideal) ℓ) (ρ : Dev nD → PrngReg)

/-- Core `q`'s total: its sixteen points' contributions added over the block rows. -/
def coreTot (c : Dev nD) (q : ℕ) : EReal := ∑ r : Fin 4096, ∑ j ∈ Finset.range 16, tv m c (16 * q + j) r

/-- Core `q`'s count. -/
def coreCnt (c : Dev nD) (q : ℕ) : EReal := ∑ r : Fin 4096, ∑ j ∈ Finset.range 16, cv m c (16 * q + j) r

/-- The totals array after the run: block `q` holds core `q`'s total at every entry. -/
def G2v (c : Dev nD) : Vec Ideal S2x8x128 .f32 := fun i => coreTot m c (i 0).val

/-- The counts array after the run. -/
def G3v (c : Dev nD) : Vec Ideal S2x8x128 .f32 := fun i => coreCnt m c (i 0).val

abbrev G2 (c : Dev nD) : Buf (Elt Ideal) ((c : Thread nD τ).loc main_v2_0) := G2v m c
abbrev G3 (c : Dev nD) : Buf (Elt Ideal) ((c : Thread nD τ).loc main_v2_1) := G3v m c

/-- The output windows over the grid: point `t` addresses block `t / 16`, a whole `[1, 8, 128]` block. -/
theorem grid2 : ∀ t : Fin cfg0.N, win0_2.index t 0 = t.val / 16 ∧ win0_2.index t 1 = 0 ∧ win0_2.index t 2 = 0
    ∧ win0_2.xsize (grid0.coords t) 0 = 1 ∧ win0_2.xsize (grid0.coords t) 1 = 8 ∧ win0_2.xsize (grid0.coords t) 2 = 128 :=
  (by decide +kernel : ∀ t : Fin grid0.N, win0_2.index t 0 = t.val / 16 ∧ win0_2.index t 1 = 0 ∧ win0_2.index t 2 = 0
    ∧ win0_2.xsize (grid0.coords t) 0 = 1 ∧ win0_2.xsize (grid0.coords t) 1 = 8 ∧ win0_2.xsize (grid0.coords t) 2 = 128)

theorem grid3 : ∀ t : Fin cfg0.N, win0_3.index t 0 = t.val / 16 ∧ win0_3.index t 1 = 0 ∧ win0_3.index t 2 = 0
    ∧ win0_3.xsize (grid0.coords t) 0 = 1 ∧ win0_3.xsize (grid0.coords t) 1 = 8 ∧ win0_3.xsize (grid0.coords t) 2 = 128 :=
  (by decide +kernel : ∀ t : Fin grid0.N, win0_3.index t 0 = t.val / 16 ∧ win0_3.index t 1 = 0 ∧ win0_3.index t 2 = 0
    ∧ win0_3.xsize (grid0.coords t) 0 = 1 ∧ win0_3.xsize (grid0.coords t) 1 = 8 ∧ win0_3.xsize (grid0.coords t) 2 = 128)

/-- What a flushing point writes back into the totals array is its block of `G2`. -/
theorem flushed2_eq (c : Dev nD) (t : Fin cfg0.N) (hf : (cfg0.win 2).flush t = true) :
    (dats m 0 c).flushed 2 t = ((cfg0.win 2).blk t).view.read (Elt Ideal) (G2 m c) := by
  have h15 : t.val % 16 = 15 := (flush0_2 t).mp hf
  have hg := grid2 t
  show (cfg0.win 2).cut (grid0.coords t) ((dats m 0 c).after 2 t) = _
  rw [after0_2]
  funext y
  rw [View.read_apply]
  show (outsAt0 m c t.val t.isLt).1 _ = G2v m c _
  rw [out2_last m c t.val t.isLt h15]
  unfold G2v coreTot
  have hy : (y 0 : Nat) < win0_2.xsize (grid0.coords t) 0 := (y 0).isLt
  have he : ((((cfg0.win 2).blk t).view.emb y) 0 : Nat) = t.val / 16 := by
    show win0_2.index t 0 * 1 + 1 * (y 0 : Nat) = t.val / 16
    rw [hg.1]; rw [hg.2.2.2.1] at hy; omega
  rw [he]
  have ht : t.val - 15 = 16 * (t.val / 16) := by omega
  rw [ht]

theorem flushed3_eq (c : Dev nD) (t : Fin cfg0.N) (hf : (cfg0.win 3).flush t = true) :
    (dats m 0 c).flushed 3 t = ((cfg0.win 3).blk t).view.read (Elt Ideal) (G3 m c) := by
  have h15 : t.val % 16 = 15 := (flush0_3 t).mp hf
  have hg := grid3 t
  show (cfg0.win 3).cut (grid0.coords t) ((dats m 0 c).after 3 t) = _
  rw [after0_3]
  funext y
  rw [View.read_apply]
  show (outsAt0 m c t.val t.isLt).2.1 _ = G3v m c _
  rw [out3_last m c t.val t.isLt h15]
  unfold G3v coreCnt
  have hy : (y 0 : Nat) < win0_3.xsize (grid0.coords t) 0 := (y 0).isLt
  have he : ((((cfg0.win 3).blk t).view.emb y) 0 : Nat) = t.val / 16 := by
    show win0_3.index t 0 * 1 + 1 * (y 0 : Nat) = t.val / 16
    rw [hg.1]; rw [hg.2.2.2.1] at hy; omega
  rw [he]
  have ht : t.val - 15 = 16 * (t.val / 16) := by omega
  rw [ht]

/-- Every entry of the totals array lies in the block the last point of its core's run writes back. -/
theorem cover2 (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 32 := N_0
  have h0 : (i 0 : Nat) < 2 := (i 0).isLt
  have h1 : (i 1 : Nat) < 8 := (i 1).isLt
  have h2 : (i 2 : Nat) < 128 := (i 2).isLt
  have hlt : 16 * (i 0 : Nat) + 15 < cfg0.N := by rw [hN]; omega
  refine ⟨⟨16 * (i 0 : Nat) + 15, hlt⟩, (flush0_2 _).mpr (by show (16 * (i 0 : Nat) + 15) % 16 = 15; omega), ?_⟩
  have hg := grid2 ⟨16 * (i 0 : Nat) + 15, hlt⟩
  have hs : ((cfg0.win 2).blk ⟨16 * (i 0 : Nat) + 15, hlt⟩).view.set = (win0_2.rect ⟨16 * (i 0 : Nat) + 15, hlt⟩).set :=
    View.set_slice_whole main_v2_0 _
  rw [hs, Rect.mem_set_unit]
  intro a
  match a with
  | ⟨0, _⟩ =>
    show win0_2.index _ 0 * 1 ≤ (i 0 : Nat) ∧ (i 0 : Nat) < win0_2.index _ 0 * 1 + win0_2.xsize _ 0
    rw [hg.1, hg.2.2.2.1]; show (16 * (i 0 : Nat) + 15) / 16 * 1 ≤ (i 0 : Nat) ∧ (i 0 : Nat) < (16 * (i 0 : Nat) + 15) / 16 * 1 + 1; omega
  | ⟨1, _⟩ =>
    show win0_2.index _ 1 * 8 ≤ (i 1 : Nat) ∧ (i 1 : Nat) < win0_2.index _ 1 * 8 + win0_2.xsize _ 1
    rw [hg.2.1, hg.2.2.2.2.1]; omega
  | ⟨2, _⟩ =>
    show win0_2.index _ 2 * 128 ≤ (i 2 : Nat) ∧ (i 2 : Nat) < win0_2.index _ 2 * 128 + win0_2.xsize _ 2
    rw [hg.2.2.1, hg.2.2.2.2.2]; omega

theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 32 := N_0
  have h0 : (i 0 : Nat) < 2 := (i 0).isLt
  have h1 : (i 1 : Nat) < 8 := (i 1).isLt
  have h2 : (i 2 : Nat) < 128 := (i 2).isLt
  have hlt : 16 * (i 0 : Nat) + 15 < cfg0.N := by rw [hN]; omega
  refine ⟨⟨16 * (i 0 : Nat) + 15, hlt⟩, (flush0_3 _).mpr (by show (16 * (i 0 : Nat) + 15) % 16 = 15; omega), ?_⟩
  have hg := grid3 ⟨16 * (i 0 : Nat) + 15, hlt⟩
  have hs : ((cfg0.win 3).blk ⟨16 * (i 0 : Nat) + 15, hlt⟩).view.set = (win0_3.rect ⟨16 * (i 0 : Nat) + 15, hlt⟩).set :=
    View.set_slice_whole main_v2_1 _
  rw [hs, Rect.mem_set_unit]
  intro a
  match a with
  | ⟨0, _⟩ =>
    show win0_3.index _ 0 * 1 ≤ (i 0 : Nat) ∧ (i 0 : Nat) < win0_3.index _ 0 * 1 + win0_3.xsize _ 0
    rw [hg.1, hg.2.2.2.1]; show (16 * (i 0 : Nat) + 15) / 16 * 1 ≤ (i 0 : Nat) ∧ (i 0 : Nat) < (16 * (i 0 : Nat) + 15) / 16 * 1 + 1; omega
  | ⟨1, _⟩ =>
    show win0_3.index _ 1 * 8 ≤ (i 1 : Nat) ∧ (i 1 : Nat) < win0_3.index _ 1 * 8 + win0_3.xsize _ 1
    rw [hg.2.1, hg.2.2.2.2.1]; omega
  | ⟨2, _⟩ =>
    show win0_3.index _ 2 * 128 ≤ (i 2 : Nat) ∧ (i 2 : Nat) < win0_3.index _ 2 * 128 + win0_3.xsize _ 2
    rw [hg.2.2.1, hg.2.2.2.2.2]; omega

/-- The totals array after the run. -/
theorem final2 (c : Dev nD) : (dats m 0 c).arrAt 2 cfg0.N = G2 m c :=
  (dats m 0 c).arrAt_eq_of_cover 2 (G2 m c) (flushed2_eq m c) (cover2 c)

/-- The counts array after the run. -/
theorem final3 (c : Dev nD) : (dats m 0 c).arrAt 3 cfg0.N = G3 m c :=
  (dats m 0 c).arrAt_eq_of_cover 3 (G3 m c) (flushed3_eq m c) (cover3 c)

/-- The lines after the region leave the result at the closing arithmetic of the two arrays. -/
theorem tail_eq (c : Dev nD) :
    Pipeline.afterTail₀ cfgs (dats m) 0 (V0 m) [hostOps1, hostOps1_1] c main_v13 = tailFn (G2 m c) (G3 m c) := by
  have e2 : Pipeline.withArrays (cfgs 0).spec c (V0 m c) (fun w => (dats m 0 c).arrAt w (cfgs 0).N) (Proc.devRef .tc main_v2_0) = G2 m c :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v2_1) = G3 m c :=
    (Pipeline.withArrays_arr spec0 launch0.win.arr_inj c _ _ 3).trans (final3 m c)
  unfold Pipeline.afterTail₀
  simp only [hostOps1, hostOps1_1, List.flatten_cons, List.flatten_nil, List.append_nil, List.cons_append, List.nil_append]
  after_results
  simp only [StableHlo.TRef.ofBuf, StableHlo.TRef.toBuf, cast_eq]
  rw [e2, e3]
  unfold tailFn coreSum
  rfl

/-- The two cores' totals add up to the total over all rows. -/
theorem cores_tot (c : Dev nD) :
    coreTot m c 0 + coreTot m c 1
      = totAll (rows (m ((c : Thread nD τ).loc main_arg0)) (m ((c : Thread nD τ).loc main_arg1))) := by
  have h := sum_cores (fun n => rowTot (rows (m ((c : Thread nD τ).loc main_arg0)) (m ((c : Thread nD τ).loc main_arg1)) n))
  rw [Fin.sum_univ_two] at h
  unfold coreTot totAll
  simp only [tv_eq]
  exact h

/-- The two cores' counts add up to the number of rows that pass. -/
theorem cores_cnt (c : Dev nD) :
    coreCnt m c 0 + coreCnt m c 1
      = ((hits (rows (m ((c : Thread nD τ).loc main_arg0)) (m ((c : Thread nD τ).loc main_arg1))) : ℝ) : EReal) := by
  have h := sum_cores (fun n => rowCnt (rows (m ((c : Thread nD τ).loc main_arg0)) (m ((c : Thread nD τ).loc main_arg1)) n))
  rw [Fin.sum_univ_two] at h
  rw [← sum_rowCnt]
  unfold coreCnt
  simp only [cv_eq]
  exact h

/-- The program's result after the host's closing lines. -/
theorem tail_value (c : Dev nD) :
    Pipeline.afterTail₀ cfgs (dats m) 0 (V0 m) [hostOps1, hostOps1_1] c main_v13
      = fun _ => answer (m ((c : Thread nD τ).loc main_arg0)) (m ((c : Thread nD τ).loc main_arg1)) := by
  rw [tail_eq]
  funext i
  rw [tailFn_apply]
  show finish (coreTot m c 0 + coreTot m c 1) (coreCnt m c 0 + coreCnt m c 1) = _
  rw [cores_tot, cores_cnt]
  rfl

/-- The run, read: every weakly fair execution of the idealized kernel's program terminates with its result at
    `answer pred mask` and its arguments unchanged. -/
theorem run_value : θ_run defs (onTc (τ := τ) (main (F := Ideal))) ⟨m, fun _ => 0, ρ⟩ (fun r => ∀ c : Dev nD,
      r.2.mem ((c.tc : Thread nD τ).loc main_v13)
        = (fun _ => answer (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v13 (Pipeline.mem_restRefs_of main_v13 (by decide) (by decide))).trans (tail_value m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KValue

end
-- ==== Proof.RefRun.lean ====
/-
  The reference's run, read back stretch by stretch.

  The reference is a straight line of 37 host operations.  Run in order from the launch contents they leave each buffer
  at the value of its operation applied to the buffers it reads; stated one operation at a time those values are the
  stage functions `val_<buffer>` of the two arguments.  The line is cut where few buffers are live: after the exponentials
  (`main_v8`), after the table of probabilities, its comparison with the threshold and the widened mask (`main_v13`,
  `main_v15`, `main_v16`), after the count and the total (`main_v17`, `main_v19`); each stretch maps the stages it reads
  to the stages it writes, and the result `main_v25` is the last stage.
-/
import proofs.«412284_j48619029790963_3_alg».proof.Proof.RefReadP
import Idealize.ShloMosaic.Lib.StableHlo.Run

noncomputable section

namespace Cert.ReferenceIdeal.RefRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- Up to the exponentials. -/
abbrev ops1 : List (HloOp τ sig (Elt F)) :=
  [ unary main_arg1 main_v0 (broadcastInDim S2048x64x512 ![0, 1, 2] bcast_S2048x64x1_S2048x64x512_0_1_2 : (⟨S2048x64x1, .f32⟩ : BufTy).Contents (Elt F) → (⟨S2048x64x512, .f32⟩ : BufTy).Contents (Elt F)),
    binary main_arg0 main_v0 main_v1 (mulf : (⟨S2048x64x512, .f32⟩ : BufTy).Contents (Elt F) → (⟨S2048x64x512, .f32⟩ : BufTy).Contents (Elt F) → (⟨S2048x64x512, .f32⟩ : BufTy).Contents (Elt F)),
    nullary main_cst (constant S_ .f32 0xFF800000#32),
    binary main_v1 main_cst main_v2 ((fun x v => Host.reduce FloatOps.maximumf x v reducesTo_S2048x64x512_S2048x64_d2 h_S_) : (⟨S2048x64x512, .f32⟩ : BufTy).Contents (Elt F) → (⟨S_, .f32⟩ : BufTy).Contents (Elt F) → (⟨S2048x64, .f32⟩ : BufTy).Contents (Elt F)),
    nullary main_cst_0 (constant S_ .f32 0xFF800000#32),
    unary main_cst_0 main_v3 (broadcastInDim S2048x64 ![] bcast_S_S2048x64 : (⟨S_, .f32⟩ : BufTy).Contents (Elt F) → (⟨S2048x64, .f32⟩ : BufTy).Contents (Elt F)),
    binary main_v3 main_v2 main_v4 (maximumf : (⟨S2048x64, .f32⟩ : BufTy).Contents (Elt F) → (⟨S2048x64, .f32⟩ : BufTy).Contents (Elt F) → (⟨S2048x64, .f32⟩ : BufTy).Contents (Elt F)),
    unary main_v4 main_v5 (broadcastInDim S2048x64x1 ![0, 1] bcast_S2048x64_S2048x64x1_0_1 : (⟨S2048x64, .f32⟩ : BufTy).Contents (Elt F) → (⟨S2048x64x1, .f32⟩ : BufTy).Contents (Elt F)),
    unary main_v5 main_v6 (broadcastInDim S2048x64x512 ![0, 1, 2] bcast_S2048x64x1_S2048x64x512_0_1_2 : (⟨S2048x64x1, .f32⟩ : BufTy).Contents (Elt F) → (⟨S2048x64x512, .f32⟩ : BufTy).Contents (Elt F)),
    binary main_v1 main_v6 main_v7 (subf : (⟨S2048x64x512, .f32⟩ : BufTy).Contents (Elt F) → (⟨S2048x64x512, .f32⟩ : BufTy).Contents (Elt F) → (⟨S2048x64x512, .f32⟩ : BufTy).Contents (Elt F)),
    unary main_v7 main_v8 (Host.exp : (⟨S2048x64x512, .f32⟩ : BufTy).Contents (Elt F) → (⟨S2048x64x512, .f32⟩ : BufTy).Contents (Elt F)) ]

/-- The row sums, the probabilities, their flattening, the comparison and the widened mask. -/
abbrev ops2 : List (HloOp τ sig (Elt F)) :=
  [ nullary main_cst_1 (constant S_ .f32 0x00000000#32),
    binary main_v8 main_cst_1 main_v9 ((fun x v => Host.reduceAdd x v reducesTo_S2048x64x512_S2048x64_d2 h_S_) : (⟨S2048x64x512, .f32⟩ : BufTy).Contents (Elt F) → (⟨S_, .f32⟩ : BufTy).Contents (Elt F) → (⟨S2048x64, .f32⟩ : BufTy).Contents (Elt F)),
    unary main_v9 main_v10 (broadcastInDim S2048x64x1 ![0, 1] bcast_S2048x64_S2048x64x1_0_1 : (⟨S2048x64, .f32⟩ : BufTy).Contents (Elt F) → (⟨S2048x64x1, .f32⟩ : BufTy).Contents (Elt F)),
    unary main_v10 main_v11 (broadcastInDim S2048x64x512 ![0, 1, 2] bcast_S2048x64x1_S2048x64x512_0_1_2 : (⟨S2048x64x1, .f32⟩ : BufTy).Contents (Elt F) → (⟨S2048x64x512, .f32⟩ : BufTy).Contents (Elt F)),
    binary main_v8 main_v11 main_v12 (Host.divf : (⟨S2048x64x512, .f32⟩ : BufTy).Contents (Elt F) → (⟨S2048x64x512, .f32⟩ : BufTy).Contents (Elt F) → (⟨S2048x64x512, .f32⟩ : BufTy).Contents (Elt F)),
    reshape main_v12 main_v13 rfl shapeCasts_S2048x64x512_S131072x512,
    nullary main_cst_2 (constant S_ .f32 0x3F666666#32),
    unary main_cst_2 main_v14 (broadcastInDim S131072x512 ![] bcast_S_S131072x512 : (⟨S_, .f32⟩ : BufTy).Contents (Elt F) → (⟨S131072x512, .f32⟩ : BufTy).Contents (Elt F)),
    binary main_v13 main_v14 main_v15 (cmpf .ogt : (⟨S131072x512, .f32⟩ : BufTy).Contents (Elt F) → (⟨S131072x512, .f32⟩ : BufTy).Contents (Elt F) → (⟨S131072x512, .i1⟩ : BufTy).Contents (Elt F)),
    unary main_v15 main_v16 ((extui 32 · natLt_1_32) : (⟨S131072x512, .i1⟩ : BufTy).Contents (Elt F) → (⟨S131072x512, .i32⟩ : BufTy).Contents (Elt F)) ]

/-- The count and the total of the selected probabilities. -/
abbrev ops3 : List (HloOp τ sig (Elt F)) :=
  [ nullary main_c (constantI S_ 32 0#32),
    binary main_v16 main_c main_v17 ((fun x v => Host.reduce IntOp.addi x v reducesTo_S131072x512_S_d0_1 h_S_) : (⟨S131072x512, .i32⟩ : BufTy).Contents (Elt F) → (⟨S_, .i32⟩ : BufTy).Contents (Elt F) → (⟨S_, .i32⟩ : BufTy).Contents (Elt F)),
    nullary main_cst_3 (constant S_ .f32 0x00000000#32),
    TRef.unary (TRef.of (T := ⟨S_, .f32⟩) main_cst_3) (TRef.of (T := ⟨S131072x512, .f32⟩) main_call0_v0) (broadcastInDim S131072x512 ![] bcast_S_S131072x512),
    TRef.ternary (TRef.of (T := ⟨S131072x512, .i1⟩) main_v15) (TRef.of (T := ⟨S131072x512, .f32⟩) main_v13) (TRef.of (T := ⟨S131072x512, .f32⟩) main_call0_v0) (TRef.of (T := ⟨S131072x512, .f32⟩) main_v18) select,
    nullary main_cst_4 (constant S_ .f32 0x00000000#32),
    binary main_v18 main_cst_4 main_v19 ((fun x v => Host.reduceAdd x v reducesTo_S131072x512_S_d0_1 h_S_) : (⟨S131072x512, .f32⟩ : BufTy).Contents (Elt F) → (⟨S_, .f32⟩ : BufTy).Contents (Elt F) → (⟨S_, .f32⟩ : BufTy).Contents (Elt F)) ]

/-- The closing scalar arithmetic. -/
abbrev ops4 : List (HloOp τ sig (Elt F)) :=
  [ unary main_v19 main_v20 (Host.negf : (⟨S_, .f32⟩ : BufTy).Contents (Elt F) → (⟨S_, .f32⟩ : BufTy).Contents (Elt F)),
    nullary main_c_5 (constantI S_ 32 1#32),
    binary main_v17 main_c_5 main_v21 (maxsi : (⟨S_, .i32⟩ : BufTy).Contents (Elt F) → (⟨S_, .i32⟩ : BufTy).Contents (Elt F) → (⟨S_, .i32⟩ : BufTy).Contents (Elt F)),
    unary main_v21 main_v22 (sitofp .f32 : (⟨S_, .i32⟩ : BufTy).Contents (Elt F) → (⟨S_, .f32⟩ : BufTy).Contents (Elt F)),
    binary main_v20 main_v22 main_v23 (Host.divf : (⟨S_, .f32⟩ : BufTy).Contents (Elt F) → (⟨S_, .f32⟩ : BufTy).Contents (Elt F) → (⟨S_, .f32⟩ : BufTy).Contents (Elt F)),
    nullary main_c_6 (constantI S_ 32 0#32),
    binary main_v17 main_c_6 main_v24 (cmpi .sgt : (⟨S_, .i32⟩ : BufTy).Contents (Elt F) → (⟨S_, .i32⟩ : BufTy).Contents (Elt F) → (⟨S_, .i1⟩ : BufTy).Contents (Elt F)),
    nullary main_cst_7 (constant S_ .f32 0x00000000#32),
    TRef.ternary (TRef.of (T := ⟨S_, .i1⟩) main_v24) (TRef.of (T := ⟨S_, .f32⟩) main_v23) (TRef.of (T := ⟨S_, .f32⟩) main_cst_7) (TRef.of (T := ⟨S_, .f32⟩) main_v25) select ]

/-- The whole line. -/
abbrev opsAll : List (HloOp τ sig (Elt F)) :=
  [ unary main_arg1 main_v0 (broadcastInDim S2048x64x512 ![0, 1, 2] bcast_S2048x64x1_S2048x64x512_0_1_2 : (⟨S2048x64x1, .f32⟩ : BufTy).Contents (Elt F) → (⟨S2048x64x512, .f32⟩ : BufTy).Contents (Elt F)),
    binary main_arg0 main_v0 main_v1 (mulf : (⟨S2048x64x512, .f32⟩ : BufTy).Contents (Elt F) → (⟨S2048x64x512, .f32⟩ : BufTy).Contents (Elt F) → (⟨S2048x64x512, .f32⟩ : BufTy).Contents (Elt F)),
    nullary main_cst (constant S_ .f32 0xFF800000#32),
    binary main_v1 main_cst main_v2 ((fun x v => Host.reduce FloatOps.maximumf x v reducesTo_S2048x64x512_S2048x64_d2 h_S_) : (⟨S2048x64x512, .f32⟩ : BufTy).Contents (Elt F) → (⟨S_, .f32⟩ : BufTy).Contents (Elt F) → (⟨S2048x64, .f32⟩ : BufTy).Contents (Elt F)),
    nullary main_cst_0 (constant S_ .f32 0xFF800000#32),
    unary main_cst_0 main_v3 (broadcastInDim S2048x64 ![] bcast_S_S2048x64 : (⟨S_, .f32⟩ : BufTy).Contents (Elt F) → (⟨S2048x64, .f32⟩ : BufTy).Contents (Elt F)),
    binary main_v3 main_v2 main_v4 (maximumf : (⟨S2048x64, .f32⟩ : BufTy).Contents (Elt F) → (⟨S2048x64, .f32⟩ : BufTy).Contents (Elt F) → (⟨S2048x64, .f32⟩ : BufTy).Contents (Elt F)),
    unary main_v4 main_v5 (broadcastInDim S2048x64x1 ![0, 1] bcast_S2048x64_S2048x64x1_0_1 : (⟨S2048x64, .f32⟩ : BufTy).Contents (Elt F) → (⟨S2048x64x1, .f32⟩ : BufTy).Contents (Elt F)),
    unary main_v5 main_v6 (broadcastInDim S2048x64x512 ![0, 1, 2] bcast_S2048x64x1_S2048x64x512_0_1_2 : (⟨S2048x64x1, .f32⟩ : BufTy).Contents (Elt F) → (⟨S2048x64x512, .f32⟩ : BufTy).Contents (Elt F)),
    binary main_v1 main_v6 main_v7 (subf : (⟨S2048x64x512, .f32⟩ : BufTy).Contents (Elt F) → (⟨S2048x64x512, .f32⟩ : BufTy).Contents (Elt F) → (⟨S2048x64x512, .f32⟩ : BufTy).Contents (Elt F)),
    unary main_v7 main_v8 (Host.exp : (⟨S2048x64x512, .f32⟩ : BufTy).Contents (Elt F) → (⟨S2048x64x512, .f32⟩ : BufTy).Contents (Elt F)),
    nullary main_cst_1 (constant S_ .f32 0x00000000#32),
    binary main_v8 main_cst_1 main_v9 ((fun x v => Host.reduceAdd x v reducesTo_S2048x64x512_S2048x64_d2 h_S_) : (⟨S2048x64x512, .f32⟩ : BufTy).Contents (Elt F) → (⟨S_, .f32⟩ : BufTy).Contents (Elt F) → (⟨S2048x64, .f32⟩ : BufTy).Contents (Elt F)),
    unary main_v9 main_v10 (broadcastInDim S2048x64x1 ![0, 1] bcast_S2048x64_S2048x64x1_0_1 : (⟨S2048x64, .f32⟩ : BufTy).Contents (Elt F) → (⟨S2048x64x1, .f32⟩ : BufTy).Contents (Elt F)),
    unary main_v10 main_v11 (broadcastInDim S2048x64x512 ![0, 1, 2] bcast_S2048x64x1_S2048x64x512_0_1_2 : (⟨S2048x64x1, .f32⟩ : BufTy).Contents (Elt F) → (⟨S2048x64x512, .f32⟩ : BufTy).Contents (Elt F)),
    binary main_v8 main_v11 main_v12 (Host.divf : (⟨S2048x64x512, .f32⟩ : BufTy).Contents (Elt F) → (⟨S2048x64x512, .f32⟩ : BufTy).Contents (Elt F) → (⟨S2048x64x512, .f32⟩ : BufTy).Contents (Elt F)),
    reshape main_v12 main_v13 rfl shapeCasts_S2048x64x512_S131072x512,
    nullary main_cst_2 (constant S_ .f32 0x3F666666#32),
    unary main_cst_2 main_v14 (broadcastInDim S131072x512 ![] bcast_S_S131072x512 : (⟨S_, .f32⟩ : BufTy).Contents (Elt F) → (⟨S131072x512, .f32⟩ : BufTy).Contents (Elt F)),
    binary main_v13 main_v14 main_v15 (cmpf .ogt : (⟨S131072x512, .f32⟩ : BufTy).Contents (Elt F) → (⟨S131072x512, .f32⟩ : BufTy).Contents (Elt F) → (⟨S131072x512, .i1⟩ : BufTy).Contents (Elt F)),
    unary main_v15 main_v16 ((extui 32 · natLt_1_32) : (⟨S131072x512, .i1⟩ : BufTy).Contents (Elt F) → (⟨S131072x512, .i32⟩ : BufTy).Contents (Elt F)),
    nullary main_c (constantI S_ 32 0#32),
    binary main_v16 main_c main_v17 ((fun x v => Host.reduce IntOp.addi x v reducesTo_S131072x512_S_d0_1 h_S_) : (⟨S131072x512, .i32⟩ : BufTy).Contents (Elt F) → (⟨S_, .i32⟩ : BufTy).Contents (Elt F) → (⟨S_, .i32⟩ : BufTy).Contents (Elt F)),
    nullary main_cst_3 (constant S_ .f32 0x00000000#32),
    TRef.unary (TRef.of (T := ⟨S_, .f32⟩) main_cst_3) (TRef.of (T := ⟨S131072x512, .f32⟩) main_call0_v0) (broadcastInDim S131072x512 ![] bcast_S_S131072x512),
    TRef.ternary (TRef.of (T := ⟨S131072x512, .i1⟩) main_v15) (TRef.of (T := ⟨S131072x512, .f32⟩) main_v13) (TRef.of (T := ⟨S131072x512, .f32⟩) main_call0_v0) (TRef.of (T := ⟨S131072x512, .f32⟩) main_v18) select,
    nullary main_cst_4 (constant S_ .f32 0x00000000#32),
    binary main_v18 main_cst_4 main_v19 ((fun x v => Host.reduceAdd x v reducesTo_S131072x512_S_d0_1 h_S_) : (⟨S131072x512, .f32⟩ : BufTy).Contents (Elt F) → (⟨S_, .f32⟩ : BufTy).Contents (Elt F) → (⟨S_, .f32⟩ : BufTy).Contents (Elt F)),
    unary main_v19 main_v20 (Host.negf : (⟨S_, .f32⟩ : BufTy).Contents (Elt F) → (⟨S_, .f32⟩ : BufTy).Contents (Elt F)),
    nullary main_c_5 (constantI S_ 32 1#32),
    binary main_v17 main_c_5 main_v21 (maxsi : (⟨S_, .i32⟩ : BufTy).Contents (Elt F) → (⟨S_, .i32⟩ : BufTy).Contents (Elt F) → (⟨S_, .i32⟩ : BufTy).Contents (Elt F)),
    unary main_v21 main_v22 (sitofp .f32 : (⟨S_, .i32⟩ : BufTy).Contents (Elt F) → (⟨S_, .f32⟩ : BufTy).Contents (Elt F)),
    binary main_v20 main_v22 main_v23 (Host.divf : (⟨S_, .f32⟩ : BufTy).Contents (Elt F) → (⟨S_, .f32⟩ : BufTy).Contents (Elt F) → (⟨S_, .f32⟩ : BufTy).Contents (Elt F)),
    nullary main_c_6 (constantI S_ 32 0#32),
    binary main_v17 main_c_6 main_v24 (cmpi .sgt : (⟨S_, .i32⟩ : BufTy).Contents (Elt F) → (⟨S_, .i32⟩ : BufTy).Contents (Elt F) → (⟨S_, .i1⟩ : BufTy).Contents (Elt F)),
    nullary main_cst_7 (constant S_ .f32 0x00000000#32),
    TRef.ternary (TRef.of (T := ⟨S_, .i1⟩) main_v24) (TRef.of (T := ⟨S_, .f32⟩) main_v23) (TRef.of (T := ⟨S_, .f32⟩) main_cst_7) (TRef.of (T := ⟨S_, .f32⟩) main_v25) select ]

theorem opsAll_eq : (opsAll : List (HloOp τ sig (Elt F))) = ops1 ++ (ops2 ++ (ops3 ++ ops4)) := rfl

theorem main_eq (c : Dev nD) : main (F := F) c = seq opsAll := rfl
theorem scopedRefs_eq : (Finset.univ.filter fun b : Ref sig .tc => b.isScoped) = ∅ := by decide
theorem scopedSems_eq : (Finset.univ.filter fun sm : SemLoc sig => sm.isScoped .tc) = ∅ := by decide
theorem opsAll_sub : (opsAll : List (HloOp τ sig (Elt F))).Forall fun op => op.bufs ⊆ tcRefs τ sig :=
  ⟨unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., reshape_bufs_sub .., nullary_bufs_sub .., unary_bufs_sub .., binary_bufs_sub .., unary_bufs_sub .., nullary_bufs_sub .., binary_bufs_sub .., nullary_bufs_sub .., unary_bufs_sub .., ternary_bufs_sub .., nullary_bufs_sub .., binary_bufs_sub .., unary_bufs_sub .., nullary_bufs_sub .., binary_bufs_sub .., unary_bufs_sub .., binary_bufs_sub .., nullary_bufs_sub .., binary_bufs_sub .., nullary_bufs_sub .., ternary_bufs_sub ..⟩

/-- First stretch: the exponentials, from the arguments. -/
theorem step1 (V : Valuation τ sig (Elt F)) :
    after ops1 V (Proc.devRef .tc main_v8)
      = val_main_v8 (F := F) (V (Proc.devRef .tc main_arg0)) (V (Proc.devRef .tc main_arg1)) := by
  after_results
  rfl

/-- Second stretch: from the exponentials to the table of probabilities, its comparison and the widened mask. -/
theorem step2 (V : Valuation τ sig (Elt F)) (x0 : (⟨S2048x64x512, .f32⟩ : BufTy).Contents (Elt F)) (x1 : (⟨S2048x64x1, .f32⟩ : BufTy).Contents (Elt F))
    (h8 : V (Proc.devRef .tc main_v8) = val_main_v8 (F := F) x0 x1) :
    after ops2 V (Proc.devRef .tc main_v13) = val_main_v13 (F := F) x0 x1
    ∧ after ops2 V (Proc.devRef .tc main_v15) = val_main_v15 (F := F) x0 x1
    ∧ after ops2 V (Proc.devRef .tc main_v16) = val_main_v16 (F := F) x0 x1 := by
  refine ⟨?_, ?_, ?_⟩
  · after_results; rw [h8]; rfl
  · after_results; rw [h8]; rfl
  · after_results; rw [h8]; rfl

/-- Third stretch: the count and the total. -/
theorem step3 (V : Valuation τ sig (Elt F)) (x0 : (⟨S2048x64x512, .f32⟩ : BufTy).Contents (Elt F)) (x1 : (⟨S2048x64x1, .f32⟩ : BufTy).Contents (Elt F))
    (h13 : V (Proc.devRef .tc main_v13) = val_main_v13 (F := F) x0 x1)
    (h15 : V (Proc.devRef .tc main_v15) = val_main_v15 (F := F) x0 x1)
    (h16 : V (Proc.devRef .tc main_v16) = val_main_v16 (F := F) x0 x1) :
    after ops3 V (Proc.devRef .tc main_v17) = val_main_v17 (F := F) x0 x1
    ∧ after ops3 V (Proc.devRef .tc main_v19) = val_main_v19 (F := F) x0 x1 := by
  refine ⟨?_, ?_⟩
  · after_results; rw [h16]; rfl
  · after_results; simp only [TRef.ofBuf, TRef.toBuf, cast_eq]; rw [h13, h15]; rfl

/-- Last stretch: the scalar. -/
theorem step4 (V : Valuation τ sig (Elt F)) (x0 : (⟨S2048x64x512, .f32⟩ : BufTy).Contents (Elt F)) (x1 : (⟨S2048x64x1, .f32⟩ : BufTy).Contents (Elt F))
    (h17 : V (Proc.devRef .tc main_v17) = val_main_v17 (F := F) x0 x1)
    (h19 : V (Proc.devRef .tc main_v19) = val_main_v19 (F := F) x0 x1) :
    after ops4 V (Proc.devRef .tc main_v25) = val_main_v25 (F := F) x0 x1 := by
  after_results; simp only [TRef.ofBuf, TRef.toBuf, cast_eq]; rw [h17, h19]; rfl

/-- Running two stretches one after the other is running their concatenation. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The whole line leaves the result buffer at the last stage of the arguments. -/
theorem value (V : Valuation τ sig (Elt F)) :
    after opsAll V (Proc.devRef .tc main_v25)
      = val_main_v25 (F := F) (V (Proc.devRef .tc main_arg0)) (V (Proc.devRef .tc main_arg1)) := by
  rw [opsAll_eq, after_app, after_app, after_app]
  obtain ⟨h13, h15, h16⟩ := step2 (after ops1 V) _ _ (step1 V)
  obtain ⟨h17, h19⟩ := step3 (after ops2 (after ops1 V)) _ _ h13 h15 h16
  exact step4 _ _ _ h17 h19

/-- No operation writes an argument. -/
theorem keep0 (V : Valuation τ sig (Elt F)) : after opsAll V (Proc.devRef .tc main_arg0) = V (Proc.devRef .tc main_arg0) := by
  after_results_simp

theorem keep1 (V : Valuation τ sig (Elt F)) : after opsAll V (Proc.devRef .tc main_arg1) = V (Proc.devRef .tc main_arg1) := by
  after_results_simp

/-- On every device, from any memory with zero counters: every weakly fair execution of the reference terminates with its
    result at the last stage of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
        = val_main_v25 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v25).trans (value (launchContents m c)),
      (h c main_arg0).trans (keep0 (launchContents m c)),
      (h c main_arg1).trans (keep1 (launchContents m c))⟩)
    (run_seq scopedRefs_eq scopedSems_eq defs main (fun _ => opsAll) main_eq (fun _ => opsAll_sub) m ρ)

end Cert.ReferenceIdeal.RefRun

end
-- ==== Proof.RefValue.lean ====
/-
  The reference, read: what its result holds as a function of its two argument arrays.

  jnp's softmax over the last axis of `pred · mask` is, row by row, `p j = exp (x j - M) / ∑ exp (x · - M)`; the
  reference selects every entry of the flattened `[131072, 512]` table of probabilities above the threshold, counts
  them as a 32-bit integer, adds the selected probabilities, and returns minus the total over the count (at least one),
  or zero when nothing is selected.  For finite inputs that is `answer pred mask`.
-/
import proofs.«412284_j48619029790963_3_alg».proof.Defs
import proofs.«412284_j48619029790963_3_alg».proof.Proof.RefReadP
import proofs.«412284_j48619029790963_3_alg».proof.Proof.Rows
import Idealize.ShloMosaic.Lib.ValueIdx
import Idealize.ShloMosaic.Lib.StableHlo.Predicate

noncomputable section

namespace Cert.ReferenceIdeal.RefValue

open Cert.ReferenceIdeal Cert.ReferenceIdeal.Gen Cert.ReferenceIdeal.ReadP
open Idealize.ShloMosaic Idealize.ShloMosaic.ValueIdx Cert.RowLaw Cert.Totals Cert.Rows

/-! ### Indices

Entry `(n, j)` of the flattened `[131072, 512]` table is entry `(n / 64, n % 64, j)` of the `[2048, 64, 512]` array; the
broadcasts of a per-row scalar read it at `(a, b, 0)` and then at `(a, b)`. -/

/-- Flattening: with `n < 131072` and `j < 512` the position `512 n + j` has coordinates `(n / 64, n % 64, j)`. -/
theorem idx13_ix2 (n : Fin 131072) (j : Fin 512) : idx_main_v13 (ix2 n j) = ix3 (rowA n) (rowB n) j := by
  funext a
  apply Fin.ext
  have hn := n.isLt
  have hj := j.isLt
  match a with
  | ⟨0, _⟩ => show (n.val * 512 + j.val) / 32768 = n.val / 64; omega
  | ⟨1, _⟩ => show (n.val * 512 + j.val) / 512 % 64 = n.val % 64; omega
  | ⟨2, _⟩ => show (n.val * 512 + j.val) % 512 = j.val; omega

/-- The mask's broadcast along the class axis reads position `(a, b, 0)`. -/
theorem idx0_ix3 (a : Fin 2048) (b : Fin 64) (k : Fin 512) : idx_main_v0 (ix3 a b k) = ix3 a b (0 : Fin 1) :=
  funext fun c => Fin.ext (by match c with | ⟨0, _⟩ => rfl | ⟨1, _⟩ => rfl | ⟨2, _⟩ => rfl)

/-- So does the broadcast of the row maximum … -/
theorem idx6_ix3 (a : Fin 2048) (b : Fin 64) (k : Fin 512) : idx_main_v6 (ix3 a b k) = ix3 a b (0 : Fin 1) :=
  funext fun c => Fin.ext (by match c with | ⟨0, _⟩ => rfl | ⟨1, _⟩ => rfl | ⟨2, _⟩ => rfl)

/-- … and of the row sum. -/
theorem idx11_ix3 (a : Fin 2048) (b : Fin 64) (k : Fin 512) : idx_main_v11 (ix3 a b k) = ix3 a b (0 : Fin 1) :=
  funext fun c => Fin.ext (by match c with | ⟨0, _⟩ => rfl | ⟨1, _⟩ => rfl | ⟨2, _⟩ => rfl)

/-- The unit axis put on a per-row scalar is read away again: `(a, b, 0) ↦ (a, b)`, for the maximum … -/
theorem idx5_ix3 (a : Fin 2048) (b : Fin 64) (c : Fin 1) : idx_main_v5 (ix3 a b c) = ix2 a b :=
  funext fun d => Fin.ext (by match d with | ⟨0, _⟩ => rfl | ⟨1, _⟩ => rfl)

/-- … and for the sum. -/
theorem idx10_ix3 (a : Fin 2048) (b : Fin 64) (c : Fin 1) : idx_main_v10 (ix3 a b c) = ix2 a b :=
  funext fun d => Fin.ext (by match d with | ⟨0, _⟩ => rfl | ⟨1, _⟩ => rfl)

/-- The row sum at `(a, b)` runs over the positions `(a, b, k)`. -/
theorem idx9_ix2 (a : Fin 2048) (b : Fin 64) (k : Fin 512) : idx_main_v9 (ix2 a b) k = ix3 a b k :=
  funext fun c => Fin.ext (by match c with | ⟨0, _⟩ => rfl | ⟨1, _⟩ => rfl | ⟨2, _⟩ => rfl)

/-- The index over `(a, b)` with `k` put on the last axis is `(a, b, k)`. -/
theorem lift_d2 (h : S2048x64x512.Reduces [2] S2048x64) (a : Fin 2048) (b : Fin 64) (k : Fin 512) :
    h.lift (ix2 a b) k = ix3 a b k :=
  funext fun c => Fin.ext (by match c with | ⟨0, _⟩ => rfl | ⟨1, _⟩ => rfl | ⟨2, _⟩ => rfl)

/-! ### One row of the softmax -/

/-- The masked scores at leading coordinates `(a, b)`, as a row. -/
def rowAt (x0 : (⟨S2048x64x512, .f32⟩ : BufTy).Contents (Elt Ideal)) (x1 : (⟨S2048x64x1, .f32⟩ : BufTy).Contents (Elt Ideal))
    (a : Fin 2048) (b : Fin 64) : Fin 512 → EReal :=
  fun k => x0 (ix3 a b k) * x1 (ix3 a b (0 : Fin 1))

/-- Row `n` of the flattened table is the row at `(n / 64, n % 64)`. -/
theorem rows_eq_rowAt (x0 : (⟨S2048x64x512, .f32⟩ : BufTy).Contents (Elt Ideal)) (x1 : (⟨S2048x64x1, .f32⟩ : BufTy).Contents (Elt Ideal))
    (n : Fin 131072) : rows x0 x1 n = rowAt x0 x1 (rowA n) (rowB n) := rfl

/-- The product `pred · broadcast mask` at `(a, b, k)`. -/
theorem v1_ix3 (x0 : (⟨S2048x64x512, .f32⟩ : BufTy).Contents (Elt Ideal)) (x1 : (⟨S2048x64x1, .f32⟩ : BufTy).Contents (Elt Ideal))
    (a : Fin 2048) (b : Fin 64) (k : Fin 512) : val_main_v1 (F := Ideal) x0 x1 (ix3 a b k) = rowAt x0 x1 a b k := by
  rw [val_main_v1_apply, val_main_v0_apply, idx0_ix3, Ideal.mulf_def]
  rfl

/-- A reduce-max over the last axis from `-∞` is, at `(a, b)`, the maximum of the row `k ↦ y (a, b, k)`. -/
theorem reduce_max_row (y : (⟨S2048x64x512, .f32⟩ : BufTy).Contents (Elt Ideal)) (a : Fin 2048) (b : Fin 64) :
    Host.reduce (FloatOps.maximumf (F := Ideal) (φ := .f32)) y (val_main_cst (F := Ideal)) reducesTo_S2048x64x512_S2048x64_d2 h_S_ (ix2 a b)
      = rowMax (fun k => y (ix3 a b k)) := by
  have h : S2048x64x512.Reduces [2] S2048x64 := by decide
  rw [Host.reduce_eq_fold_single (FloatOps.maximumf (F := Ideal) (φ := .f32)) y _ reducesTo_S2048x64x512_S2048x64_d2 h h_S_, val_main_cst_apply,
    Ideal.ofBits_def, ofBits_negInf]
  have hl : y ∘ h.lift (ix2 a b) = fun k : Fin 512 => y (ix3 a b k) := funext fun k => congrArg y (lift_d2 h a b k)
  rw [hl]
  rfl

/-- The row maximum, as the reference takes it. -/
theorem v2_ix2 (x0 : (⟨S2048x64x512, .f32⟩ : BufTy).Contents (Elt Ideal)) (x1 : (⟨S2048x64x1, .f32⟩ : BufTy).Contents (Elt Ideal))
    (a : Fin 2048) (b : Fin 64) : val_main_v2 (F := Ideal) x0 x1 (ix2 a b) = rowMax (rowAt x0 x1 a b) := by
  have hy : (fun k => val_main_v1 (F := Ideal) x0 x1 (ix3 a b k)) = rowAt x0 x1 a b := funext fun k => v1_ix3 x0 x1 a b k
  rw [← hy]
  unfold val_main_v2
  generalize val_main_v1 (F := Ideal) x0 x1 = y
  exact reduce_max_row y a b

/-- `max (-∞) M = M`. -/
theorem v4_ix2 (x0 : (⟨S2048x64x512, .f32⟩ : BufTy).Contents (Elt Ideal)) (x1 : (⟨S2048x64x1, .f32⟩ : BufTy).Contents (Elt Ideal))
    (a : Fin 2048) (b : Fin 64) : val_main_v4 (F := Ideal) x0 x1 (ix2 a b) = rowMax (rowAt x0 x1 a b) := by
  rw [val_main_v4_apply, val_main_v3_apply, val_main_cst_0_apply, v2_ix2, Ideal.maximumf_def, Ideal.ofBits_def, ofBits_negInf]
  exact max_bot_left _

/-- The row maximum broadcast back over the classes. -/
theorem v6_ix3 (x0 : (⟨S2048x64x512, .f32⟩ : BufTy).Contents (Elt Ideal)) (x1 : (⟨S2048x64x1, .f32⟩ : BufTy).Contents (Elt Ideal))
    (a : Fin 2048) (b : Fin 64) (k : Fin 512) : val_main_v6 (F := Ideal) x0 x1 (ix3 a b k) = rowMax (rowAt x0 x1 a b) := by
  rw [val_main_v6_apply, idx6_ix3, val_main_v5_apply, idx5_ix3, v4_ix2]

/-- `e k = exp (x k - M)`. -/
theorem v8_ix3 (x0 : (⟨S2048x64x512, .f32⟩ : BufTy).Contents (Elt Ideal)) (x1 : (⟨S2048x64x1, .f32⟩ : BufTy).Contents (Elt Ideal))
    (a : Fin 2048) (b : Fin 64) (k : Fin 512) : val_main_v8 (F := Ideal) x0 x1 (ix3 a b k) = rowExp (rowAt x0 x1 a b) k := by
  rw [val_main_v8_apply, val_main_v7_apply, v1_ix3, v6_ix3, Ideal.subf_def, Ideal.hostUnary_exp_def]
  rfl

/-- `s = 0 + ∑ k, e k`. -/
theorem v9_ix2 (x0 : (⟨S2048x64x512, .f32⟩ : BufTy).Contents (Elt Ideal)) (x1 : (⟨S2048x64x1, .f32⟩ : BufTy).Contents (Elt Ideal))
    (a : Fin 2048) (b : Fin 64) : val_main_v9 (F := Ideal) x0 x1 (ix2 a b) = rowSum (rowAt x0 x1 a b) := by
  rw [val_main_v9_apply, val_main_cst_1_apply, Ideal.ofBits_def, Ideal.ofBits_zero_f32, zero_add]
  unfold rowSum
  exact Finset.sum_congr rfl fun k _ => by rw [idx9_ix2, v8_ix3]

/-- The row sum broadcast back over the classes. -/
theorem v11_ix3 (x0 : (⟨S2048x64x512, .f32⟩ : BufTy).Contents (Elt Ideal)) (x1 : (⟨S2048x64x1, .f32⟩ : BufTy).Contents (Elt Ideal))
    (a : Fin 2048) (b : Fin 64) (k : Fin 512) : val_main_v11 (F := Ideal) x0 x1 (ix3 a b k) = rowSum (rowAt x0 x1 a b) := by
  rw [val_main_v11_apply, idx11_ix3, val_main_v10_apply, idx10_ix3, v9_ix2]

/-- `p k = e k / s`. -/
theorem v12_ix3 (x0 : (⟨S2048x64x512, .f32⟩ : BufTy).Contents (Elt Ideal)) (x1 : (⟨S2048x64x1, .f32⟩ : BufTy).Contents (Elt Ideal))
    (a : Fin 2048) (b : Fin 64) (k : Fin 512) : val_main_v12 (F := Ideal) x0 x1 (ix3 a b k) = softP (rowAt x0 x1 a b) k := by
  rw [val_main_v12_apply, v8_ix3, v11_ix3, Ideal.hostDivf_def]
  rfl

/-- The table of probabilities at row `n`, class `j`: the softmax of row `n` of the masked scores. -/
theorem prob_apply (x0 : (⟨S2048x64x512, .f32⟩ : BufTy).Contents (Elt Ideal)) (x1 : (⟨S2048x64x1, .f32⟩ : BufTy).Contents (Elt Ideal))
    (n : Fin 131072) (j : Fin 512) :
    val_main_v13 (F := Ideal) x0 x1 (ix2 n j) = softP (rows x0 x1 n) j := by
  rw [val_main_v13_apply, idx13_ix2, v12_ix3, rows_eq_rowAt]

/-! ### The table, its total and its count -/

/-- The selection bit at row `n`, class `j`: does `p j` pass the threshold. -/
theorem v15_ix2 (x0 : (⟨S2048x64x512, .f32⟩ : BufTy).Contents (Elt Ideal)) (x1 : (⟨S2048x64x1, .f32⟩ : BufTy).Contents (Elt Ideal))
    (n : Fin 131072) (j : Fin 512) : val_main_v15 (F := Ideal) x0 x1 (ix2 n j) = softSel (rows x0 x1 n) j := by
  rw [val_main_v15_apply, prob_apply, val_main_v14_apply, val_main_cst_2_apply]
  rfl

/-- The selected probability at row `n`, class `j`: `p j` where it passes, zero elsewhere. -/
theorem v18_ix2 (x0 : (⟨S2048x64x512, .f32⟩ : BufTy).Contents (Elt Ideal)) (x1 : (⟨S2048x64x1, .f32⟩ : BufTy).Contents (Elt Ideal))
    (n : Fin 131072) (j : Fin 512) :
    val_main_v18 (F := Ideal) x0 x1 (ix2 n j) = if softSel (rows x0 x1 n) j = 1#1 then softP (rows x0 x1 n) j else 0 := by
  rw [val_main_v18_apply, v15_ix2, prob_apply, val_main_call0_v0_apply, val_main_cst_3_apply, Ideal.ofBits_def,
    Ideal.ofBits_zero_f32]
  rfl

/-- The float total over the table is the rows' total. -/
theorem tot_eq (x0 : (⟨S2048x64x512, .f32⟩ : BufTy).Contents (Elt Ideal)) (x1 : (⟨S2048x64x1, .f32⟩ : BufTy).Contents (Elt Ideal))
    (h0 : ∀ i, ∃ r : ℝ, x0 i = (r : EReal)) (h1 : ∀ i, ∃ r : ℝ, x1 i = (r : EReal)) (i : S_.Idx) :
    val_main_v19 (F := Ideal) x0 x1 i = totAll (rows x0 x1) := by
  rw [val_main_v19_apply, val_main_cst_4_apply, Ideal.ofBits_def, Ideal.ofBits_zero_f32, zero_add,
    ← sum_table (rows x0 x1) (rows_real x0 x1 h0 h1)]
  exact Finset.sum_congr rfl fun t _ =>
    (congrArg (val_main_v18 (F := Ideal) x0 x1) (eq_ix2 t)).trans (v18_ix2 x0 x1 (t 0) (t 1))

/-- The integer count over the table is the number of rows that pass, as a word that does not wrap. -/
theorem cnt_eq (x0 : (⟨S2048x64x512, .f32⟩ : BufTy).Contents (Elt Ideal)) (x1 : (⟨S2048x64x1, .f32⟩ : BufTy).Contents (Elt Ideal))
    (h0 : ∀ i, ∃ r : ℝ, x0 i = (r : EReal)) (h1 : ∀ i, ∃ r : ℝ, x1 i = (r : EReal)) (i : S_.Idx) :
    (val_main_v17 (F := Ideal) x0 x1 i).toNat = hits (rows x0 x1) := by
  unfold val_main_v17 val_main_v16 val_main_c
  generalize hm : val_main_v15 (F := Ideal) x0 x1 = m
  rw [toNat_reduce_count_all (by norm_num) m natLt_1_32 reducesTo_S131072x512_S_d0_1 h_S_ i,
    ← card_table (rows x0 x1) (rows_real x0 x1 h0 h1)]
  refine congrArg Finset.card (Finset.filter_congr fun t _ => ?_)
  rw [← hm, (congrArg (val_main_v15 (F := Ideal) x0 x1) (eq_ix2 t)).trans (v15_ix2 x0 x1 (t 0) (t 1))]

/-- The reference's result for finite inputs. -/
theorem ref_result (x0 : (⟨S2048x64x512, .f32⟩ : BufTy).Contents (Elt Ideal)) (x1 : (⟨S2048x64x1, .f32⟩ : BufTy).Contents (Elt Ideal))
    (h0 : ∀ i, ∃ r : ℝ, x0 i = (r : EReal)) (h1 : ∀ i, ∃ r : ℝ, x1 i = (r : EReal)) :
    val_main_v25 (F := Ideal) x0 x1 = fun _ => answer x0 x1 := by
  funext i
  rw [val_main_v25_apply, val_main_v24_apply, val_main_v23_apply, val_main_v22_apply, val_main_v21_apply, val_main_v20_apply,
    val_main_c_6_apply, val_main_c_5_apply, val_main_cst_7_apply, tot_eq x0 x1 h0 h1 i]
  have hw := cnt_eq x0 x1 h0 h1 i
  generalize val_main_v17 (F := Ideal) x0 x1 i = w at hw ⊢
  have hH : hits (rows x0 x1) < 2 ^ 31 := lt_of_le_of_lt (hits_le (rows x0 x1)) (by norm_num)
  exact finish_of_word (totAll (rows x0 x1)) w (hits (rows x0 x1)) hw hH

end Cert.ReferenceIdeal.RefValue

end
-- ==== Proof.Finite.lean ====
/-
  The precondition, decoded: every entry of both inputs is a real number.

  The printed predicate is `all (|pred| < +∞) ∧ all (|mask| < +∞)`.  Over the extended reals `|x| = max x (-x) < ⊤`
  holds exactly when `x` is neither `⊤` nor `⊥`, that is when `x` is the coercion of a real.
-/
import proofs.«412284_j48619029790963_3_alg».proof.Pre_finite_inputs
import proofs.«412284_j48619029790963_3_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

variable [Cert.Pre_finite_inputs.Facts]

/-- The pattern `0x7F800000` (sign 0, exponent all ones, fraction 0) denotes `+∞`. -/
theorem ofBits_inf : (FloatOps.ofBits (F := Ideal) .f32 0x7F800000#32) = (⊤ : EReal) := by
  show Ideal.ofBits .f32 0x7F800000#32 = ⊤
  simp [Ideal.ofBits, Ideal.ieee]

/-- An ordered `<` comparison of extended reals that answers 1 says the left side is below the right. -/
theorem lt_of_cmp_olt (a b : EReal) (h : Ideal.cmp .olt a b = 1#1) : a < b := by
  by_contra hn
  simp [Ideal.cmp, hn] at h

/-- `max x (-x) < ⊤` excludes both infinities: at `⊥` the maximum is `-⊥ = ⊤`, at `⊤` it is `⊤` itself. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One element of `|x| < +∞` being 1 says the entry is a real. -/
theorem real_of_elem (a : EReal)
    (e : Ideal.cmp .olt (max a (-a)) (FloatOps.ofBits (F := Ideal) .f32 0x7F800000#32) = 1#1) :
    ∃ r : ℝ, a = (r : EReal) := by
  rw [ofBits_inf] at e
  exact real_of_abs_lt_top a (lt_of_cmp_olt _ _ e)

/-- If the printed predicate holds of two arrays, every entry of each is a real number. -/
theorem real_of_pre (x0 : FVec Ideal S2048x64x512 .f32) (x1 : FVec Ideal S2048x64x1 .f32)
    (h : Cert.Pre_finite_inputs.fn (F := Ideal) x0 x1 = fun _ => 1#1) :
    (∀ i, ∃ r : ℝ, x0 i = (r : EReal)) ∧ (∀ i, ∃ r : ℝ, x1 i = (r : EReal)) := by
  -- the rank-0 result read at its one index: the `and` of the two reductions is 1, so each is
  have h0 := congrFun h ValueIdx.ix0
  dsimp only [Cert.Pre_finite_inputs.fn] at h0
  obtain ⟨ha, hb⟩ := IntOp.andi_eq_one.1 h0
  haveI : Subsingleton S_.Idx := ⟨fun a b => funext fun d => d.elim0⟩
  -- a reduction by `and` over all axes that is 1 met a 1 at every index; there the comparison reads
  -- `max (x i) (-(x i)) < +∞` (the broadcast constant is the same scalar at every index)
  refine ⟨fun i => real_of_elem (x0 i) ?_, fun i => real_of_elem (x1 i) ?_⟩
  · exact Host.reduce_andi_all _ _ _ _ _ ha i
  · exact Host.reduce_andi_all _ _ _ _ _ hb i

end Cert.Finite

end
-- ==== Proof.lean ====
/-
  Equivalence over the extended reals of a confidence-thresholded pseudo-label loss and its reference.

  Inputs: scores `pred : f32[2048, 64, 512]` and a mask `mask : f32[2048, 64, 1]`, finite.  Row `n` of the flattened,
  masked scores has softmax `p j = exp (x j - M) / s`.  The reference selects every probability above the threshold
  `thr` (the binary32 `0.9`), and returns minus their total over their number (zero if there is none).  The kernel looks at
  each row's largest probability `1 / s` only: since `thr > 1/2` and the probabilities of a row sum to one, at most one
  class of a row can pass, and one does exactly when `1 / s` does (RowLaw).  The kernel adds `[thr < 1/s] · 1/s` and
  `[thr < 1/s]` per row into two accumulators over sixteen grid points per core, sums them at each core's last point, and
  the host combines the two cores; the reference adds over the whole table and counts in a 32-bit integer that cannot
  wrap (at most 131072 rows pass).  Over the extended reals finite sums do not depend on their arrangement (Totals), so both
  programs return the same scalar `answer pred mask` (Rows): the kernel's by its frame run read through the accumulators
  (KPieces, KPayload, KBlocks, KInvariant, KFinal, KTail), the reference's by its run read stage by stage (RefRun, RefValue).
  Finiteness of the inputs (Finite) is what makes every row a row of real numbers.  The idealization rewrote nothing.
-/
import proofs.«412284_j48619029790963_3_alg».proof.Defs
import proofs.«412284_j48619029790963_3_alg».proof.Proof.Gen.Kernel
import proofs.«412284_j48619029790963_3_alg».proof.Proof.Gen.Kernel.Frame
import proofs.«412284_j48619029790963_3_alg».proof.Proof.Gen.KernelIdeal
import proofs.«412284_j48619029790963_3_alg».proof.Proof.Gen.KernelIdeal.Frame
import proofs.«412284_j48619029790963_3_alg».proof.Proof.Gen.ReferenceIdeal
import proofs.«412284_j48619029790963_3_alg».proof.Proof.Gen.Pre_finite_inputs
import proofs.«412284_j48619029790963_3_alg».proof.Proof.KFinal
import proofs.«412284_j48619029790963_3_alg».proof.Proof.RefRun
import proofs.«412284_j48619029790963_3_alg».proof.Proof.RefValue
import proofs.«412284_j48619029790963_3_alg».proof.Proof.Finite
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments. -/
theorem frame_ri : Cert.frame_ReferenceIdeal := fun m ρ _ =>
  (θ_run Cert.ReferenceIdeal.defs _ _).mono (fun _ h c => (h c).2) (Cert.ReferenceIdeal.RefRun.run (F := Ideal) m ρ)

/-- From memories that agree on finite arguments both idealized programs end with the scalar `answer pred mask`. -/
theorem algebraic : Cert.algebraic_KernelIdeal_ReferenceIdeal := by
  intro m ρ m' ρ' hpre hagree
  refine ⟨fun c => fun _ => Cert.Rows.answer (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run_value m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  obtain ⟨h0, h1⟩ := Cert.Finite.real_of_pre _ _ (hpre c)
  exact Cert.ReferenceIdeal.RefValue.ref_result _ _ h0 h1

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
